-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x8192 : S_.BroadcastsInDim S4x8192x8192 (![] : Fin 0 → Fin S4x8192x8192.rank)
  reducesTo_S4x8192x8192_S_d0_1_2 : S4x8192x8192.ReducesTo [0, 1, 2] S_
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn {F : FTy → Type} [FloatOps F] (main_arg0 : FVec F S4x8192x64 .f32) (main_arg1 : FVec F S4x8192x8192 .f32) (main_arg2 : FVec F S4x8192x16 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x8192 .f32 := Host.absf main_arg1
  let main_cst_0 : FVec F S_ .f32 := constant S_ .f32 0x7F800000#32
  let main_v5 : FVec F S4x8192x8192 .f32 := broadcastInDim S4x8192x8192 ![] bcast_S_S4x8192x8192 main_cst_0
  let main_v6 : IVec S4x8192x8192 1 := cmpf .olt main_v4 main_v5
  let main_c_1 : IVec S_ 1 := constantI S_ 1 1#1
  let main_v7 : IVec S_ 1 := (fun x v => Host.reduce IntOp.andi x v reducesTo_S4x8192x8192_S_d0_1_2 h_S_) main_v6 main_c_1
  let main_v8 : IVec S_ 1 := andi main_v3 main_v7
  let main_v9 : FVec F S4x8192x16 .f32 := Host.absf main_arg2
  let main_cst_2 : FVec F S_ .f32 := constant S_ .f32 0x7F800000#32
  let main_v10 : FVec F S4x8192x16 .f32 := broadcastInDim S4x8192x16 ![] bcast_S_S4x8192x16 main_cst_2
  let main_v11 : IVec S4x8192x16 1 := cmpf .olt main_v9 main_v10
  let main_c_3 : IVec S_ 1 := constantI S_ 1 1#1
  let main_v12 : IVec S_ 1 := (fun x v => Host.reduce IntOp.andi x v reducesTo_S4x8192x16_S_d0_1_2 h_S_) main_v11 main_c_3
  let main_v13 : IVec S_ 1 := andi main_v8 main_v12
  main_v13
-- ==== Kernel.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩
abbrev S4x8192 : Shape := ⟨2, ![4, 8192]⟩
abbrev S4x8192x1 : Shape := ⟨3, ![4, 8192, 1]⟩
abbrev S1x1 : Shape := ⟨2, ![1, 1]⟩
abbrev S1x256x8192 : Shape := ⟨3, ![1, 256, 8192]⟩
abbrev S1x8192x16 : Shape := ⟨3, ![1, 8192, 16]⟩
abbrev S8192x16 : Shape := ⟨2, ![8192, 16]⟩
abbrev S16x8192 : Shape := ⟨2, ![16, 8192]⟩
abbrev S16x16 : Shape := ⟨2, ![16, 16]⟩
abbrev S16 : Shape := ⟨1, ![16]⟩
abbrev S16x1 : Shape := ⟨2, ![16, 1]⟩
abbrev S1 : Shape := ⟨1, ![1]⟩
abbrev S256x8192 : Shape := ⟨2, ![256, 8192]⟩
abbrev S256x16 : Shape := ⟨2, ![256, 16]⟩

abbrev nBuf : Space → Nat
  | .hbm => 19
  | .vmem => 9
  | .smem => 0
  | _ => 0

abbrev bufTy : (tb : Table) → Fin (tcTables nBuf tb) → BufTy
  | .hbm, ⟨0, _⟩ => ⟨S4x8192x64, .f32⟩
  | .hbm, ⟨1, _⟩ => ⟨S4x8192x8192, .f32⟩
  | .hbm, ⟨2, _⟩ => ⟨S4x8192x16, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x16, .f32⟩
  | .hbm, ⟨10, _⟩ => ⟨S4x8192x16, .f32⟩
  | .hbm, ⟨11, _⟩ => ⟨S4x8192x16, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x16, .f32⟩
  | .hbm, ⟨16, _⟩ => ⟨S4x8192x16, .f32⟩
  | .hbm, ⟨17, _⟩ => ⟨S1x1, .f32⟩
  | .hbm, ⟨18, _⟩ => ⟨S_, .f32⟩
  | .local _ .vmem, ⟨0, _⟩ => ⟨S1x256x8192, .f32⟩
  | .local _ .vmem, ⟨1, _⟩ => ⟨S1x256x8192, .f32⟩
  | .local _ .vmem, ⟨2, _⟩ => ⟨S1x8192x16, .f32⟩
  | .local _ .vmem, ⟨3, _⟩ => ⟨S1x8192x16, .f32⟩
  | .local _ .vmem, ⟨4, _⟩ => ⟨S1x1, .f32⟩
  | .local _ .vmem, ⟨5, _⟩ => ⟨S8192x16, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v15 : BitVec 32 := Scalar.muli arg1 c256_i32
  v15
def k0_off1 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v17 : Index := Scalar.indexCast v16
  let c0_9 : Index := 0#32
  ![v17.toNat, 0]
def k0_cond4 (i : grid0.Coords) : BitVec 1 :=
  let arg0 : BitVec 32 := BitVec.ofNat 32 (i 0).val
  let c3_i32 : BitVec 32 := 3#32
  let v24 : BitVec 1 := Scalar.cmpi .eq arg0 c3_i32
  let arg1 : BitVec 32 := BitVec.ofNat 32 (i 1).val
  let c31_i32_11 : BitVec 32 := 31#32
  let v25 : BitVec 1 := Scalar.cmpi .eq arg1 c31_i32_11
  let v26 : BitVec 1 := Scalar.andi v24 v25
  let v27 : BitVec 32 := Scalar.extui v26
  let c0_i32_12 : BitVec 32 := 0#32
  let v28 : BitVec 1 := Scalar.cmpi .ne v27 c0_i32_12
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  reducesTo_S4x8192x16_S4x8192_d2 : S4x8192x16.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192x16_S1x8192x16_0_0_0 : ∀ a, (![0, 0, 0] : Fin 3 → Nat) a + S1x8192x16.size a ≤ S1x8192x16.size a
  h_S1x8192x16 : 0 < S1x8192x16.numel
  shapeCasts_S1x8192x16_S8192x16 : S1x8192x16.ShapeCasts S8192x16
  transposes_S8192x16_p1_0_S16x8192 : S8192x16.Transposes [1, 0] S16x8192
  iota_S16x16_d0_w32 : S16x16.Iotas .tc 32 [0]
  iota_S16x16_d1_w32 : S16x16.Iotas .tc 32 [1]
  natLt_1_32 : 1 < 32
  reduces_S16x16_S16 : S16x16.Reduces [1] S16
  shapeCasts_S16_S16x1 : S16.ShapeCasts S16x1
  reduces_S16x1_S1 : S16x1.Reduces [0] S1
  shapeCasts_S1_S1x1 : S1.ShapeCasts S1x1
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  bitsLt_bf16_f32 : FTy.bits .bf16 < FTy.bits .f32
  h_S256x16 : 0 < S256x16.numel
  shapeCasts_S256x16_S256x16 : S256x16.ShapeCasts S256x16
  inb_S8192x16_S8192x16_0_0 : ∀ a, (![0, 0] : Fin 2 → Nat) a + S8192x16.size a ≤ S8192x16.size a
  h_S8192x16 : 0 < S8192x16.numel
  shapeCasts_S1x1_S_ : S1x1.ShapeCasts S_
  dot_S16x8192_S8192x16_S16x16_1_0_0_1_n_n_wf : DotDims.WF S16x8192 S8192x16 S16x16 [1] [0] [0] [1] [] []
  dot_S256x8192_S8192x16_S256x16_1_0_0_1_n_n_wf : DotDims.WF S256x8192 S8192x16 S256x16 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S4x8192x8192.size a
  hwx0_0 : ∀ i : grid0.Coords, EltTy.bits .f32 = 32 ∨ (Rect.block (s := S4x8192x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x16.size a ≤ S4x8192x16.size a
  hwx0_1 : ∀ i : grid0.Coords, EltTy.bits .f32 = 32 ∨ (Rect.block (s := S4x8192x16) S1x8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S16x8192_S8192x16_S16x16_1_0_0_1_n_n : DotDims S16x8192 S8192x16 S16x16 where
  lhsContracting := [1]
  rhsContracting := [0]
  lhsNonContracting := [0]
  rhsNonContracting := [1]
  lhsBatch := []
  rhsBatch := []
  wf := dot_S16x8192_S8192x16_S16x16_1_0_0_1_n_n_wf
def dot_S256x8192_S8192x16_S256x16_1_0_0_1_n_n : DotDims S256x8192 S8192x16 S256x16 where
  lhsContracting := [1]
  rhsContracting := [0]
  lhsNonContracting := [0]
  rhsNonContracting := [1]
  lhsBatch := []
  rhsBatch := []
  wf := dot_S256x8192_S8192x16_S256x16_1_0_0_1_n_n_wf

abbrev win0_0 : Pipeline.Window sig grid0 :=
  Pipeline.Window.ofSpec (Memref.whole main_arg1) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩
abbrev S4x8192 : Shape := ⟨2, ![4, 8192]⟩
abbrev S4x8192x1 : Shape := ⟨3, ![4, 8192, 1]⟩
abbrev S4x16x8192 : Shape := ⟨3, ![4, 16, 8192]⟩
abbrev S4x16x16 : Shape := ⟨3, ![4, 16, 16]⟩
abbrev S16x16 : Shape := ⟨2, ![16, 16]⟩
abbrev S4 : Shape := ⟨1, ![4]⟩
abbrev S1x16x16 : Shape := ⟨3, ![1, 16, 16]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x8192, .f32⟩
  | .hbm, ⟨2, _⟩ => ⟨S4x8192x16, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x16, .f32⟩
  | .hbm, ⟨10, _⟩ => ⟨S4x8192x16, .f32⟩
  | .hbm, ⟨11, _⟩ => ⟨S4x8192x16, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x16, .f32⟩
  | .hbm, ⟨16, _⟩ => ⟨S4x8192x16, .f32⟩
  | .hbm, ⟨17, _⟩ => ⟨S4x16x8192, .f32⟩
  | .hbm, ⟨18, _⟩ => ⟨S4x16x16, .f32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i1⟩
  | .hbm, ⟨25, _⟩ => ⟨S_, .f32⟩
  | .hbm, ⟨26, _⟩ => ⟨S4x16x16, .f32⟩
  | .hbm, ⟨27, _⟩ => ⟨S4x16x16, .i1⟩
  | .hbm, ⟨28, _⟩ => ⟨S4x16x16, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x16x16, .f32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .f32⟩
  | .hbm, ⟨44, _⟩ => ⟨S1x16x16, .f32⟩
  | .hbm, ⟨45, _⟩ => ⟨S4x16x16, .f32⟩
  | .hbm, ⟨46, _⟩ => ⟨S4x16x16, .f32⟩
  | .hbm, ⟨47, _⟩ => ⟨S4x16x16, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_call0_call0_v0 : Ref sig .tc := ⟨.hbm, 27, rfl⟩
abbrev main_call0_v6 : Ref sig .tc := ⟨.hbm, 28, rfl⟩
abbrev main_call0_cst_0 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  reducesTo_S4x8192x16_S4x8192_d2 : S4x8192x16.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  bcast_S_S16x16 : S_.BroadcastsInDim S16x16 (![] : Fin 0 → Fin S16x16.rank)
  bcast_S_S4x16x16 : S_.BroadcastsInDim S4x16x16 (![] : Fin 0 → Fin S4x16x16.rank)
  bcast_S16x16_S4x16x16_1_2 : S16x16.BroadcastsInDim S4x16x16 (![1, 2] : Fin 2 → Fin S4x16x16.rank)
  reducesTo_S4x16x16_S4_d1_2 : S4x16x16.ReducesTo [1, 2] S4
  reducesTo_S4_S_d0 : S4.ReducesTo [0] S_
  reducesTo_S4x16x16_S_d0_1_2 : S4x16x16.ReducesTo [0, 1, 2] S_
  bcast_S16x16_S1x16x16_1_2 : S16x16.BroadcastsInDim S1x16x16 (![1, 2] : Fin 2 → Fin S1x16x16.rank)
  bcast_S1x16x16_S4x16x16_0_1_2 : S1x16x16.BroadcastsInDim S4x16x16 (![0, 1, 2] : Fin 3 → Fin S4x16x16.rank)
  dot_S4x8192x16_S4x8192x8192_S4x16x8192_1_1_2_2_0_0_wf : DotDims.WF S4x8192x16 S4x8192x8192 S4x16x8192 [1] [1] [2] [2] [0] [0]
  dot_S4x16x8192_S4x8192x16_S4x16x16_2_1_1_2_0_0_wf : DotDims.WF S4x16x8192 S4x8192x16 S4x16x16 [2] [1] [1] [2] [0] [0]
  dot_S4x8192x16_S4x8192x16_S4x16x16_1_1_2_2_0_0_wf : DotDims.WF S4x8192x16 S4x8192x16 S4x16x16 [1] [1] [2] [2] [0] [0]

variable [Facts₀]

def dot_S4x8192x16_S4x8192x8192_S4x16x8192_1_1_2_2_0_0 : DotDims S4x8192x16 S4x8192x8192 S4x16x8192 where
  lhsContracting := [1]
  rhsContracting := [1]
  lhsNonContracting := [2]
  rhsNonContracting := [2]
  lhsBatch := [0]
  rhsBatch := [0]
  wf := dot_S4x8192x16_S4x8192x8192_S4x16x8192_1_1_2_2_0_0_wf
def dot_S4x16x8192_S4x8192x16_S4x16x16_2_1_1_2_0_0 : DotDims S4x16x8192 S4x8192x16 S4x16x16 where
  lhsContracting := [2]
  rhsContracting := [1]
  lhsNonContracting := [1]
  rhsNonContracting := [2]
  lhsBatch := [0]
  rhsBatch := [0]
  wf := dot_S4x16x8192_S4x8192x16_S4x16x16_2_1_1_2_0_0_wf
def dot_S4x8192x16_S4x8192x16_S4x16x16_1_1_2_2_0_0 : DotDims S4x8192x16 S4x8192x16 S4x16x16 where
  lhsContracting := [1]
  rhsContracting := [1]
  lhsNonContracting := [2]
  rhsNonContracting := [2]
  lhsBatch := [0]
  rhsBatch := [0]
  wf := dot_S4x8192x16_S4x8192x16_S4x16x16_1_1_2_2_0_0_wf

class Facts : Prop extends Facts₀ where

variable [Facts]
-- ==== Proof.PDefs.lean ====
/-
  What the kernel keeps in its four scratch buffers from grid point to grid point, as pure functions.
  The grid is 4 batches × 32 row tiles. At each point the body writes one 256-row slice of the
  8192 × 16 scratch `Y` (the tile's rows of `W S`); at a batch's first tile it adds that batch's squared
  distance of `Sᵀ S` from the identity to the third accumulator; at a batch's last tile, when `Y` is
  whole, it adds the trace and the total of `Sᵀ Y` to the first two accumulators; the very first point
  zeroes all three first, and the very last point writes the loss from them.
  `stepSt` is one point's effect on the scratch contents, `stAt s₀ n` the contents after point `n` from
  arbitrary entry contents `s₀`. In closed form (`Inv`): after point `n` the accumulators hold the
  fold over the batches finished so far (`trAt`, `csAt`, `osAt`) and the rows of `Y` written in the
  current batch hold `Yb`; none of this depends on `s₀`.
-/
import proofs.«144528_j25563645346550_1_alg».proof.Proof.Gen.Kernel.Frame
import proofs.«144528_j25563645346550_1_alg».proof.Proof.Gen.Kernel.Skeleton
import Idealize.ShloMosaic.Lib.WritesUnit

noncomputable section

namespace Cert.Kernel.Body

open Cert.Kernel Cert.Kernel.Gen
open Idealize.ShloMosaic Idealize.ShloMosaic.TcCoe
open Idealize.SL Idealize.SL.Sem

variable {F : FTy → Type} [FloatOps F]

/-! ## The body's four branch conditions, from the grid coordinates -/

/-- First point of the whole grid (batch 0, tile 0): the accumulators are zeroed. -/
abbrev c1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- First tile of a batch. -/
abbrev c2 (i : grid0.Coords) : Prop := (Scalar.cmpi .ne (Scalar.extui (Scalar.cmpi .eq (BitVec.ofNat 32 (i 1).val) 0#32)) 0#32) = 1#1
/-- Last tile of a batch. -/
abbrev c3 (i : grid0.Coords) : Prop := (Scalar.cmpi .ne (Scalar.extui (Scalar.cmpi .eq (BitVec.ofNat 32 (i 1).val) 31#32)) 0#32) = 1#1
/-- Last point of the whole grid. -/
abbrev c4 (i : grid0.Coords) : Prop := k0_cond4 i = 1#1

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val % 32 = 0 :=
  (by decide +kernel : ∀ t : Fin grid0.N, c2 (grid0.coords t) ↔ t.val % 32 = 0)
theorem hc3 : ∀ t : Fin cfg0.N, c3 (grid0.coords t) ↔ t.val % 32 = 31 :=
  (by decide +kernel : ∀ t : Fin grid0.N, c3 (grid0.coords t) ↔ t.val % 32 = 31)
theorem hc4 : ∀ t : Fin cfg0.N, c4 (grid0.coords t) ↔ t.val = 127 :=
  (by decide +kernel : ∀ t : Fin grid0.N, c4 (grid0.coords t) ↔ t.val = 127)
/-- The slice of `Y` a point writes starts at row 256 · (tile index). -/
theorem hoff : ∀ t : Fin cfg0.N, k0_off1 (grid0.coords t) = ![256 * (t.val % 32), 0] :=
  (by decide +kernel : ∀ t : Fin grid0.N, k0_off1 (grid0.coords t) = ![256 * (t.val % 32), 0])

/-! ## One point's effect on the scratch contents -/

/-- The contents of the four scratch buffers: `Y` and the trace, total and distance accumulators. -/
structure St (F : FTy → Type) [FloatOps F] where
  y5 : Vec F S8192x16 .f32
  a6 : Vec F S1x1 .f32
  a7 : Vec F S1x1 .f32
  a8 : Vec F S1x1 .f32

/-- `Y` with the point's 256-row slice overwritten by `p`. -/
def upd5 (i : grid0.Coords) (y : Vec F S8192x16 .f32) (p : Vec F S256x16 .f32) : Vec F S8192x16 .f32 :=
  fun idx => if h : ∀ a, k0_off1 i a ≤ (idx a).val ∧ (idx a).val < k0_off1 i a + S256x16.size a then
      p (Rect.unitLocal (s := S8192x16) (off := k0_off1 i) (size := S256x16.size) idx h)
    else y idx

open Classical in
/-- The scratch contents after the body at coordinates `i` on the blocks `x0` (of `W`) and `x1` (of `S`). -/
def stepSt (i : grid0.Coords) (x0 : Vec F S1x256x8192 .f32) (x1 : Vec F S1x8192x16 .f32) (s : St F) : St F :=
  let a6₁ : Vec F S1x1 .f32 := if c1 i then k0_pay1 (F := F) else s.a6
  let a7₁ : Vec F S1x1 .f32 := if c1 i then k0_pay2 (F := F) else s.a7
  let a8₁ : Vec F S1x1 .f32 := if c1 i then k0_pay3 (F := F) else s.a8
  let a8₂ : Vec F S1x1 .f32 := if c2 i then k0_pay4 x1 a8₁ else a8₁
  let y5' : Vec F S8192x16 .f32 := upd5 i s.y5 (k0_pay5 x0 x1)
  ⟨y5', if c3 i then k0_pay7 x1 y5' a6₁ else a6₁, if c3 i then k0_pay8 x1 y5' a7₁ else a7₁, a8₂⟩

open Classical in
/-- The output block's staging buffer after the body: the loss at the last point, untouched elsewhere. -/
def outSt (i : grid0.Coords) (s' : St F) (xo : Vec F S1x1 .f32) : Vec F S1x1 .f32 :=
  if c4 i then k0_pay9 s'.a6 s'.a7 s'.a8 else xo

/-! ## The scratch contents point by point -/

variable (m : (ℓ : Loc nD τ sig) → Buf (Elt F) ℓ)

/-- Point number `n` (taken mod 128) as a grid point. -/
def pt (n : ℕ) : Fin cfg0.N := ⟨n % 128, lt_of_lt_of_eq (Nat.mod_lt _ (by decide)) (show (128 : ℕ) = cfg0.N from N_0.symm)⟩

theorem pt_val (t : Fin cfg0.N) : pt t.val = t :=
  Fin.ext (Nat.mod_eq_of_lt (lt_of_lt_of_eq t.isLt (show cfg0.N = 128 from N_0)))

/-- The block of `W` the body finds at point `n`. -/
abbrev Wb (c : Dev nD) (n : ℕ) : Vec F S1x256x8192 .f32 := iblk m c 0 (pt n)
/-- The block of `S` the body finds at point `n`. -/
abbrev Sb (c : Dev nD) (n : ℕ) : Vec F S1x8192x16 .f32 := iblk m c 1 (pt n)

/-- The scratch contents after point `n`, from entry contents `s₀`. -/
def stAt (c : Dev nD) (s₀ : St F) : ℕ → St F
  | 0 => stepSt (grid0.coords (pt 0)) (Wb m c 0) (Sb m c 0) s₀
  | n + 1 => stepSt (grid0.coords (pt (n + 1))) (Wb m c (n + 1)) (Sb m c (n + 1)) (stAt c s₀ n)

/-! ## The closed forms -/

/-- Batch `k`'s `Y = W S`, tile by tile: row `r` is row `r % 256` of the product at tile `r / 256`. -/
def Yb (c : Dev nD) (k : ℕ) : Vec F S8192x16 .f32 := fun idx =>
  k0_pay5 (Wb m c (32 * k + (idx 0).val / 256)) (Sb m c (32 * k + (idx 0).val / 256))
    (fun a => match a with
      | ⟨0, _⟩ => ⟨(idx 0).val % 256, Nat.mod_lt _ (by decide)⟩
      | ⟨1, _⟩ => idx 1)

/-- The trace accumulator after `k` finished batches. -/
def trAt (c : Dev nD) : ℕ → Vec F S1x1 .f32
  | 0 => k0_pay1 (F := F)
  | k + 1 => k0_pay7 (Sb m c (32 * k + 31)) (Yb m c k) (trAt c k)
/-- The total accumulator after `k` finished batches. -/
def csAt (c : Dev nD) : ℕ → Vec F S1x1 .f32
  | 0 => k0_pay2 (F := F)
  | k + 1 => k0_pay8 (Sb m c (32 * k + 31)) (Yb m c k) (csAt c k)
/-- The distance accumulator after `k` started batches. -/
def osAt (c : Dev nD) : ℕ → Vec F S1x1 .f32
  | 0 => k0_pay3 (F := F)
  | k + 1 => k0_pay4 (Sb m c (32 * k)) (osAt c k)

/-- The loss the last point writes. -/
def outFinal (c : Dev nD) : Vec F S1x1 .f32 := k0_pay9 (trAt m c 4) (csAt m c 4) (osAt m c 4)

/-- What holds of the scratch contents after point `n`, whatever they were at entry. -/
structure Inv (c : Dev nD) (n : ℕ) (s : St F) : Prop where
  a6 : s.a6 = trAt m c ((n + 1) / 32)
  a7 : s.a7 = csAt m c ((n + 1) / 32)
  a8 : s.a8 = osAt m c (n / 32 + 1)
  y5 : ∀ idx : S8192x16.Idx, (idx 0).val < 256 * (n % 32 + 1) → s.y5 idx = Yb m c (n / 32) idx

end Cert.Kernel.Body

end
-- ==== Proof.PRunLib.lean ====
/-
  Reading back what the body's stores leave: a store of a whole block leaves its payload whatever was
  there; the store of one 256-row slice of `Y` leaves the slice at the payload and the other rows as
  they were.
-/
import proofs.«144528_j25563645346550_1_alg».proof.Proof.PDefs
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3a : (![0, 0, 0] : Fin S1x256x8192.rank → ℕ) = fun _ => 0 := by funext a; fin_cases a <;> rfl
theorem hz3b : (![0, 0, 0] : Fin S1x8192x16.rank → ℕ) = fun _ => 0 := by funext a; fin_cases a <;> rfl
theorem hz2a : (![0, 0] : Fin S1x1.rank → ℕ) = fun _ => 0 := by funext a; fin_cases a <;> rfl
theorem hz2b : (![0, 0] : Fin S8192x16.rank → ℕ) = fun _ => 0 := by funext a; fin_cases a <;> rfl

/-- After a last store through the whole block the buffer reads the payload, whatever the earlier stores and contents. -/
theorem read_cons_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext x
  have e := View.read_writes_cons_emb v f (Rect.whole S) w L x
  rw [Rect.emb_whole_apply] at e
  exact e

/-- The raw contents after the one slice store read back: the slice at the payload, the rest as before. -/
theorem read_upd5 (i : grid0.Coords) (arg5 : Memref sig .tc .vmem S8192x16 .f32) (harg5 : arg5.IsWhole)
    (y5 : Vec F S8192x16 .f32) (p : Vec F S256x16 .f32) :
    View.read (Elt F) arg5.view (arg5.view.writes (Elt F) (harg5.unread y5)
      [⟨Rect.unit (s := S8192x16) (k0_off1 i) S256x16.size (k0_off1_inb i), p⟩]) = upd5 i y5 p := by
  funext idx
  rw [View.read_writes_cons_unit arg5.view (harg5.unread y5) (k0_off1_inb i) p [] idx rfl]
  unfold upd5
  rw [View.writes_nil, harg5.read_unread]

end Cert.Kernel.Body

end
-- ==== Proof.PRunA.lean ====
/-
  The body at the grid's first point (batch 0, tile 0): the three accumulators are zeroed, the distance
  accumulator then takes the batch's term, and the tile's slice of `Y` is written.
-/
import proofs.«144528_j25563645346550_1_alg».proof.Proof.PRunLib
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runA (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : c1 i) (h2 : c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (k0_pay1 (F := F)) ∗ owns (c : Thread nD τ) arg7 fullShare (k0_pay2 (F := F)) ∗ owns (c : Thread nD τ) arg8 fullShare (k0_pay4 x1 (k0_pay3 (F := F)))) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr
    swap; · iexact H6
    ipureintro
    exact read_cons_whole _ _ hz2a _ _ _
  isplitl [H7]
  · iexists _; isplitr
    swap; · iexact H7
    ipureintro
    exact read_cons_whole _ _ hz2a _ _ _
  iexists _; isplitr
  swap; · iexact H8
  ipureintro
  rw [read_cons_whole _ _ hz2a]
  sl_unfold_words
  simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.readCov_unit_zero (S := S1x1) _ hz2a]

end Cert.Kernel.Body

end
-- ==== Proof.PRunB.lean ====
/-
  The body at a later batch's first tile: the distance accumulator takes the batch's term and the tile's
  slice of `Y` is written.
-/
import proofs.«144528_j25563645346550_1_alg».proof.Proof.PRunLib
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runB (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (a6) ∗ owns (c : Thread nD τ) arg7 fullShare (a7) ∗ owns (c : Thread nD τ) arg8 fullShare (k0_pay4 x1 a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_cons_whole _ _ hz2a]
  sl_unfold_words
  simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.readCov_unit_zero (S := S1x1) _ hz2a]

end Cert.Kernel.Body

end
-- ==== Proof.PRunC.lean ====
/-
  The body at a tile that is neither first nor last of its batch: only the tile's slice of `Y` is written.
-/
import proofs.«144528_j25563645346550_1_alg».proof.Proof.PRunLib
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runC (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (a6) ∗ owns (c : Thread nD τ) arg7 fullShare (a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

end Cert.Kernel.Body

end
-- ==== Proof.PRunD.lean ====
/-
  The body at a batch's last tile (not the grid's last point): the tile's slice of `Y` is written, `Y` is then
  read whole, and the trace and total accumulators take the batch's terms.
-/
import proofs.«144528_j25563645346550_1_alg».proof.Proof.PRunLib
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runD (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (k0_pay7 x1 (upd5 i y5 (k0_pay5 x0 x1)) a6) ∗ owns (c : Thread nD τ) arg7 fullShare (k0_pay8 x1 (upd5 i y5 (k0_pay5 x0 x1)) a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H6]
  · iexists _; isplitr
    swap; · iexact H6
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H7]
  · iexists _; isplitr
    swap; · iexact H7
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  iexists _; isplitr; · ipureintro; exact harg8.read_unread _
  iexact H8

end Cert.Kernel.Body

end
-- ==== Proof.PRunE.lean ====
/-
  The body at the grid's last point: as at any batch's last tile, and then the loss is written into the
  output block from the three accumulators.
-/
import proofs.«144528_j25563645346550_1_alg».proof.Proof.PRunLib
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runE (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : c3 i) (h4 : c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (k0_pay9 (k0_pay7 x1 (upd5 i y5 (k0_pay5 x0 x1)) a6) (k0_pay8 x1 (upd5 i y5 (k0_pay5 x0 x1)) a7) a8)
            ∗ owns (c : Thread nD τ) arg5 fullShare (upd5 i y5 (k0_pay5 x0 x1)) ∗ owns (c : Thread nD τ) arg6 fullShare (k0_pay7 x1 (upd5 i y5 (k0_pay5 x0 x1)) a6) ∗ owns (c : Thread nD τ) arg7 fullShare (k0_pay8 x1 (upd5 i y5 (k0_pay5 x0 x1)) a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H5]
  · iexists _; isplitr
    swap; · iexact H5
    ipureintro
    sl_unfold_words
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H6]
  · iexists _; isplitr
    swap; · iexact H6
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H7]
  · iexists _; isplitr
    swap; · iexact H7
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  iexists _; isplitr; · ipureintro; exact harg8.read_unread _
  iexact H8

end Cert.Kernel.Body

end
-- ==== Proof.PRun.lean ====
/-
  The kernel body's run on any staging and scratch memrefs, at any grid coordinates where the four
  branch conditions are nested as on the grid (the zeroing only at a first tile, the final write only at a
  last tile, no tile both first and last): from whole memrefs at given contents the body runs to the end
  and leaves the input blocks as they were, the scratch at `stepSt` of what it held, and the output block
  at `outSt`. By cases on the conditions: one symbolic run of the body per case.
-/
import proofs.«144528_j25563645346550_1_alg».proof.Proof.PRunA
import proofs.«144528_j25563645346550_1_alg».proof.Proof.PRunB
import proofs.«144528_j25563645346550_1_alg».proof.Proof.PRunC
import proofs.«144528_j25563645346550_1_alg».proof.Proof.PRunD
import proofs.«144528_j25563645346550_1_alg».proof.Proof.PRunE
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at coordinates `i`, from scratch contents `s`: it ends with the scratch at `stepSt i x0 x1 s` and the output
    block at `outSt`. -/
theorem run_body (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h12 : c1 i → c2 i) (h43 : c4 i → c3 i) (h23 : ¬(c2 i ∧ c3 i))
    (x0 : Vec F S1x256x8192 .f32) (x1 : Vec F S1x8192x16 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s.y5 ∗ owns (c : Thread nD τ) arg6 fullShare s.a6 ∗ owns (c : Thread nD τ) arg7 fullShare s.a7 ∗ owns (c : Thread nD τ) arg8 fullShare s.a8
        ∗ (iprop(owns (c : Thread nD τ) arg2 fullShare x0 ∗ owns (c : Thread nD τ) arg3 fullShare x1
            ∗ owns (c : Thread nD τ) arg4 fullShare (outSt i (stepSt i x0 x1 s) xo)
            ∗ owns (c : Thread nD τ) arg5 fullShare (stepSt i x0 x1 s).y5 ∗ owns (c : Thread nD τ) arg6 fullShare (stepSt i x0 x1 s).a6
            ∗ owns (c : Thread nD τ) arg7 fullShare (stepSt i x0 x1 s).a7 ∗ owns (c : Thread nD τ) arg8 fullShare (stepSt i x0 x1 s).a8) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  obtain ⟨y5, a6, a7, a8⟩ := s
  by_cases h2 : c2 i
  · have h3 : ¬c3 i := fun h => h23 ⟨h2, h⟩
    have h4 : ¬c4 i := fun h => h3 (h43 h)
    by_cases h1 : c1 i
    · simp only [stepSt, outSt, if_pos h1, if_pos h2, if_neg h3, if_neg h4]
      exact runA c i arg2 harg2 arg3 harg3 arg4 harg4 arg5 harg5 arg6 harg6 arg7 harg7 arg8 harg8 h1 h2 h3 h4 x0 x1 xo y5 a6 a7 a8 E K
    · simp only [stepSt, outSt, if_neg h1, if_pos h2, if_neg h3, if_neg h4]
      exact runB c i arg2 harg2 arg3 harg3 arg4 harg4 arg5 harg5 arg6 harg6 arg7 harg7 arg8 harg8 h1 h2 h3 h4 x0 x1 xo y5 a6 a7 a8 E K
  · have h1 : ¬c1 i := fun h => h2 (h12 h)
    by_cases h3 : c3 i
    · by_cases h4 : c4 i
      · simp only [stepSt, outSt, if_neg h1, if_neg h2, if_pos h3, if_pos h4]
        exact runE c i arg2 harg2 arg3 harg3 arg4 harg4 arg5 harg5 arg6 harg6 arg7 harg7 arg8 harg8 h1 h2 h3 h4 x0 x1 xo y5 a6 a7 a8 E K
      · simp only [stepSt, outSt, if_neg h1, if_neg h2, if_pos h3, if_neg h4]
        exact runD c i arg2 harg2 arg3 harg3 arg4 harg4 arg5 harg5 arg6 harg6 arg7 harg7 arg8 harg8 h1 h2 h3 h4 x0 x1 xo y5 a6 a7 a8 E K
    · have h4 : ¬c4 i := fun h => h3 (h43 h)
      simp only [stepSt, outSt, if_neg h1, if_neg h2, if_neg h3, if_neg h4]
      exact runC c i arg2 harg2 arg3 harg3 arg4 harg4 arg5 harg5 arg6 harg6 arg7 harg7 arg8 harg8 h1 h2 h3 h4 x0 x1 xo y5 a6 a7 a8 E K

end Cert.Kernel.Body

end
-- ==== Proof.PInv.lean ====
/-
  The closed forms of the scratch contents hold after every grid point, by induction on the point:
  the conditions are decided by the point's number (first point, first and last tile of a batch), the
  slice a point writes is rows 256·(n mod 32) … of `Y`, and the rows below it were written by the
  earlier tiles of the same batch.
-/
import proofs.«144528_j25563645346550_1_alg».proof.Proof.PDefs

noncomputable section

namespace Cert.Kernel.Body

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- Below 128 a point's number is its own value. -/
theorem pt_val_of_lt {n : ℕ} (hn : n < 128) : (pt n).val = n := Nat.mod_eq_of_lt hn

/-- The rows of `Y` up to the end of point `n`'s slice hold batch `n / 32`'s product, once the rows
    below the slice do: a row inside the slice `[256 (n mod 32), 256 (n mod 32) + 256)` is the payload's row
    `r - 256 (n mod 32) = r mod 256` at tile `r / 256 = n mod 32`, i.e. at point `32 (n / 32) + r / 256 = n`;
    a row below it is untouched. -/
theorem upd5_rows (c : Dev nD) (n : ℕ) (hn : n < 128) (y : Vec F S8192x16 .f32)
    (hy : ∀ idx : S8192x16.Idx, (idx 0).val < 256 * (n % 32) → y idx = Yb m c (n / 32) idx) :
    ∀ idx : S8192x16.Idx, (idx 0).val < 256 * (n % 32 + 1) →
      upd5 (grid0.coords (pt n)) y (k0_pay5 (Wb m c n) (Sb m c n)) idx = Yb m c (n / 32) idx := by
  intro idx hidx
  have hoffn : k0_off1 (grid0.coords (pt n)) = ![256 * (n % 32), 0] := by
    have h := hoff (pt n)
    rwa [pt_val_of_lt hn] at h
  have h1 : (idx 1).val < 16 := (idx 1).isLt
  unfold upd5
  by_cases hr : 256 * (n % 32) ≤ (idx 0).val
  · have h : ∀ a, k0_off1 (grid0.coords (pt n)) a ≤ (idx a).val ∧
        (idx a).val < k0_off1 (grid0.coords (pt n)) a + S256x16.size a := by
      rw [hoffn]
      refine Fin.forall_fin_two.mpr ⟨⟨hr, ?_⟩, ⟨Nat.zero_le _, ?_⟩⟩
      · show (idx 0).val < 256 * (n % 32) + 256
        omega
      · show (idx 1).val < 0 + 16
        omega
    rw [dif_pos h]
    have hq : 32 * (n / 32) + (idx 0).val / 256 = n := by omega
    unfold Yb
    rw [hq]
    congr 1
    funext a
    refine Fin.ext ?_
    rw [Rect.unitLocal_val, hoffn]
    match a with
    | ⟨0, _⟩ =>
      show (idx 0).val - 256 * (n % 32) = (idx 0).val % 256
      omega
    | ⟨1, _⟩ =>
      show (idx 1).val - 0 = (idx 1).val
      omega
  · have h : ¬ ∀ a, k0_off1 (grid0.coords (pt n)) a ≤ (idx a).val ∧
        (idx a).val < k0_off1 (grid0.coords (pt n)) a + S256x16.size a := by
      intro h
      have h0 := (h 0).1
      rw [hoffn] at h0
      exact hr h0
    rw [dif_neg h]
    exact hy idx (by omega)

/-- One point carries the closed forms on: from the closed forms after point `n - 1` (or nothing, at
    the first point, which zeroes the accumulators) to those after point `n`. -/
theorem step_inv (c : Dev nD) (n : ℕ) (hn : n < 128) (s : St F)
    (hs : n ≠ 0 → Inv m c (n - 1) s) :
    Inv m c n (stepSt (grid0.coords (pt n)) (Wb m c n) (Sb m c n) s) := by
  have hpv : (pt n).val = n := pt_val_of_lt hn
  have h1 : c1 (grid0.coords (pt n)) ↔ n = 0 := by
    have h := hc1 (pt n)
    rwa [hpv] at h
  have h2 : c2 (grid0.coords (pt n)) ↔ n % 32 = 0 := by
    have h := hc2 (pt n)
    rwa [hpv] at h
  have h3 : c3 (grid0.coords (pt n)) ↔ n % 32 = 31 := by
    have h := hc3 (pt n)
    rwa [hpv] at h
  -- the rows of `Y` written so far in this batch: those below the slice are the earlier tiles'
  have hy : ∀ idx : S8192x16.Idx, (idx 0).val < 256 * (n % 32 + 1) →
      upd5 (grid0.coords (pt n)) s.y5 (k0_pay5 (Wb m c n) (Sb m c n)) idx = Yb m c (n / 32) idx := by
    refine upd5_rows m c n hn s.y5 (fun idx hidx => ?_)
    have h' := (hs (by omega)).y5 idx (by omega)
    rwa [show (n - 1) / 32 = n / 32 by omega] at h'
  -- at a batch's last tile `Y` is whole: all its 8192 = 256 · 32 rows are written
  have hyfull : n % 32 = 31 →
      upd5 (grid0.coords (pt n)) s.y5 (k0_pay5 (Wb m c n) (Sb m c n)) = Yb m c (n / 32) := by
    intro h31
    funext idx
    have h0 : (idx 0).val < 8192 := (idx 0).isLt
    exact hy idx (by omega)
  refine ⟨?_, ?_, ?_, hy⟩
  · -- the trace accumulator: zeroed at the first point, advanced at a batch's last tile
    simp only [stepSt]
    by_cases hn0 : n = 0
    · have h31 : ¬ n % 32 = 31 := by omega
      rw [if_neg (fun h => h31 (h3.mp h)), if_pos (h1.mpr hn0), hn0]
      rfl
    · have hp := hs hn0
      rw [if_neg (fun h => hn0 (h1.mp h)), hp.a6, show (n - 1 + 1) / 32 = n / 32 by omega]
      by_cases h31 : n % 32 = 31
      · rw [if_pos (h3.mpr h31), hyfull h31, show (n + 1) / 32 = n / 32 + 1 by omega]
        show _ = k0_pay7 (Sb m c (32 * (n / 32) + 31)) (Yb m c (n / 32)) (trAt m c (n / 32))
        rw [show 32 * (n / 32) + 31 = n by omega]
      · rw [if_neg (fun h => h31 (h3.mp h)), show (n + 1) / 32 = n / 32 by omega]
  · -- the total accumulator, likewise
    simp only [stepSt]
    by_cases hn0 : n = 0
    · have h31 : ¬ n % 32 = 31 := by omega
      rw [if_neg (fun h => h31 (h3.mp h)), if_pos (h1.mpr hn0), hn0]
      rfl
    · have hp := hs hn0
      rw [if_neg (fun h => hn0 (h1.mp h)), hp.a7, show (n - 1 + 1) / 32 = n / 32 by omega]
      by_cases h31 : n % 32 = 31
      · rw [if_pos (h3.mpr h31), hyfull h31, show (n + 1) / 32 = n / 32 + 1 by omega]
        show _ = k0_pay8 (Sb m c (32 * (n / 32) + 31)) (Yb m c (n / 32)) (csAt m c (n / 32))
        rw [show 32 * (n / 32) + 31 = n by omega]
      · rw [if_neg (fun h => h31 (h3.mp h)), show (n + 1) / 32 = n / 32 by omega]
  · -- the distance accumulator: zeroed at the first point, advanced at a batch's first tile
    simp only [stepSt]
    by_cases hn0 : n = 0
    · rw [if_pos (h2.mpr (by omega)), if_pos (h1.mpr hn0), hn0]
      rfl
    · have hp := hs hn0
      rw [if_neg (fun h => hn0 (h1.mp h)), hp.a8]
      by_cases h32 : n % 32 = 0
      · rw [if_pos (h2.mpr h32), show (n - 1) / 32 + 1 = n / 32 by omega]
        show _ = k0_pay4 (Sb m c (32 * (n / 32))) (osAt m c (n / 32))
        rw [show 32 * (n / 32) = n by omega]
      · rw [if_neg (fun h => h32 (h2.mp h)), show (n - 1) / 32 = n / 32 by omega]

/-- The closed forms hold after every point. -/
theorem inv (c : Dev nD) (s₀ : St F) (n : ℕ) (hn : n < 128) : Inv m c n (stAt m c s₀ n) := by
  induction n with
  | zero => exact step_inv m c 0 hn s₀ (fun h => absurd rfl h)
  | succ k ih =>
    refine step_inv m c (k + 1) hn (stAt m c s₀ k) (fun _ => ?_)
    rw [Nat.add_sub_cancel]
    exact ih (by omega)

/-- So the last point writes `outFinal`, whatever the scratch held at entry. -/
theorem outSt_last (c : Dev nD) (s₀ : St F) (xo : Vec F S1x1 .f32) :
    outSt (grid0.coords (pt 127)) (stAt m c s₀ 127) xo = outFinal m c := by
  have h4 : c4 (grid0.coords (pt 127)) := (hc4 (pt 127)).mpr rfl
  have I := inv m c s₀ 127 (by decide)
  unfold outSt
  rw [if_pos h4, I.a6, I.a7, I.a8]
  rfl

end Cert.Kernel.Body

end
-- ==== Proof.PFrame.lean ====
/-
  The kernel program's frame run, over any float instance. The proof data: each input window's buffer
  holds its block of the array the region finds; the output block's buffer ends at the loss
  (`outFinal`); between points the four scratch buffers hold `stAt z n` for SOME entry contents `z`
  (whatever they held when the region was entered). The body obligation at a point is the body's run
  (`run_body`) from the scratch contents the point before left; at the last point the output block
  is the loss whatever `z` was (`outSt_last`), elsewhere the body leaves the output block untouched and
  the pipeline does not write it back. The launch is the library's frame run with a tracking invariant
  and a host tail (the reshape of the 1 × 1 result).
-/
import proofs.«144528_j25563645346550_1_alg».proof.Proof.PRun
import proofs.«144528_j25563645346550_1_alg».proof.Proof.PInv
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S1x256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev sc0 : Memref sig .tc .vmem S8192x16 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3

/-- The class invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, c4 (grid0.coords t) → cfg0.idle 2 (grid0.coords t) = false := by decide +kernel
theorem idleAt2 : ∀ t : Fin cfg0.N, ¬c4 (grid0.coords t) → cfg0.idle 2 (grid0.coords t) = true := by decide +kernel
theorem noFlush2 : ∀ t : Fin cfg0.N, ¬c4 (grid0.coords t) → (cfg0.win 2).flush t = false := by decide +kernel

/-! ## The scratch contents at a grid point -/

theorem Wb_val (c : Dev nD) (t : Fin cfg0.N) : Wb m c t.val = iblk m c 0 t := by
  have h : ∀ p q : Fin cfg0.N, p = q → Wb m c p.val = iblk m c 0 q := fun p q e => by
    subst e; show iblk m c 0 (pt p.val) = iblk m c 0 p; rw [pt_val]
  exact h t t rfl
theorem Sb_val (c : Dev nD) (t : Fin cfg0.N) : Sb m c t.val = iblk m c 1 t := by
  have h : ∀ p q : Fin cfg0.N, p = q → Sb m c p.val = iblk m c 1 q := fun p q e => by
    subst e; show iblk m c 1 (pt p.val) = iblk m c 1 p; rw [pt_val]
  exact h t t rfl
theorem coords_pt (t : Fin cfg0.N) : grid0.coords (pt t.val) = grid0.coords t := congrArg grid0.coords (pt_val t)

/-- At the first point the contents are one step from the entry contents. -/
theorem stAt_first (c : Dev nD) (z : St F) (t : Fin cfg0.N) (hz : t.val = 0) :
    stAt m c z t.val = stepSt (grid0.coords t) (iblk m c 0 t) (iblk m c 1 t) z := by
  rw [← Wb_val m c t, ← Sb_val m c t, ← coords_pt t, hz]; rfl

/-- At a later point they are one step from what the point before left. -/
theorem stAt_later (c : Dev nD) (z : St F) (t : Fin cfg0.N) (hz : t.val ≠ 0) :
    stAt m c z t.val = stepSt (grid0.coords t) (iblk m c 0 t) (iblk m c 1 t) (stAt m c z (t.val - 1)) := by
  rw [← Wb_val m c t, ← Sb_val m c t, ← coords_pt t]
  obtain ⟨n, hn⟩ : ∃ n, t.val = n + 1 := ⟨t.val - 1, by omega⟩
  rw [hn]; rfl

/-- At the last point the output block ends at the loss. -/
theorem outSt_at (c : Dev nD) (z : St F) (xo : Vec F S1x1 .f32) (t : Fin cfg0.N) (ht : t.val = 127) :
    outSt (grid0.coords t) (stAt m c z t.val) xo = outFinal m c := by
  have h := outSt_last m c z xo
  rw [← ht, coords_pt t] at h
  exact h

/-! ## The invariant and the proof data -/

/-- The region invariant before point `n`: at entry the class's (every scratch at anything); afterwards the four
    scratch buffers at `stAt z (n - 1)` for some entry contents `z`, and the generator register at some state. -/
def PhiS (c : Dev nD) : ℕ → sProp 𝕄
  | 0 => Pipeline.ΦA spec0 c
  | n + 1 => iprop((∃ z : St F, owns (c : Thread nD τ) sc0 fullShare (stAt m c z n).y5 ∗ owns (c : Thread nD τ) sc1 fullShare (stAt m c z n).a6
      ∗ owns (c : Thread nD τ) sc2 fullShare (stAt m c z n).a7 ∗ owns (c : Thread nD τ) sc3 fullShare (stAt m c z n).a8) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop((∃ z : St F, owns (c : Thread nD τ) sc0 fullShare (stAt m c z n).y5 ∗ owns (c : Thread nD τ) sc1 fullShare (stAt m c z n).a6
      ∗ owns (c : Thread nD τ) sc2 fullShare (stAt m c z n).a7 ∗ owns (c : Thread nD τ) sc3 fullShare (stAt m c z n).a8) ∗ (∃ r, prngReg c r)) := rfl
theorem PhiS_pos (c : Dev nD) (n : ℕ) (hz : n ≠ 0) :
    PhiS m c n = iprop((∃ z : St F, owns (c : Thread nD τ) sc0 fullShare (stAt m c z (n - 1)).y5 ∗ owns (c : Thread nD τ) sc1 fullShare (stAt m c z (n - 1)).a6
      ∗ owns (c : Thread nD τ) sc2 fullShare (stAt m c z (n - 1)).a7 ∗ owns (c : Thread nD τ) sc3 fullShare (stAt m c z (n - 1)).a8) ∗ (∃ r, prngReg c r)) := by
  cases n with
  | zero => exact absurd rfl hz
  | succ n => rfl

/-- The proof data: the arrays as the region finds them; after the body each input's buffer at its block and the
    output's at the loss; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outFinal m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 128 := lt_of_lt_of_eq t.isLt (show cfg0.N = 128 from N_0)
  have h12 : c1 (grid0.coords t) → c2 (grid0.coords t) := fun h => (hc2 t).mpr (by rw [(hc1 t).mp h])
  have h43 : c4 (grid0.coords t) → c3 (grid0.coords t) := fun h => (hc3 t).mpr (by rw [(hc4 t).mp h])
  have h23 : ¬(c2 (grid0.coords t) ∧ c3 (grid0.coords t)) := fun h => by
    have h2 := (hc2 t).mp h.1; have h3 := (hc3 t).mp h.2; omega
  by_cases h4 : c4 (grid0.coords t)
  · have ht : t.val = 127 := (hc4 t).mp h4
    have hz : t.val ≠ 0 := by omega
    rw [show (dats m 0 c).leavesExact 2 t = owns (c : Thread nD τ) (ms2 t) fullShare ((dats m 0 c).after 2 t) from by
      unfold Dat.leavesExact; rw [liveAt2 t h4], after0_2]
    rw [PhiS_castSucc m c t, PhiS_pos m c _ hz]
    iintro ⟨⟨⟨%z, HS0, HS1, HS2, HS3⟩, Hg⟩, Ho, ⟨%d0, H0⟩, ⟨%d1, H1⟩, ⟨%d2, H2⟩⟩
    iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (stAt m c z (t.val - 1)) Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    rw [← stAt_later m c z t hz, outSt_at m c z _ t ht]
    iintro ⟨H0, H1, H2, HS0, HS1, HS2, HS3⟩
    isplitl [HS0 HS1 HS2 HS3 Hg]
    · isplitr [Hg]
      · iexists z
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    iexact H2
  · rw [Dat.leavesExact_idle (dats m 0 c) 2 t (idleAt2 t h4) (noFlush2 t h4)]
    have eo : ∀ (s' : St F) (xo : Vec F S1x1 .f32), outSt (grid0.coords t) s' xo = xo := fun s' xo => by
      unfold outSt; exact if_neg h4
    by_cases hz : t.val = 0
    · rw [PhiS_castSucc m c t, PhiS_zero m c _ hz, PhiA_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩⟩
      iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (⟨e0, e1, e2, e3⟩ : St F) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      rw [← stAt_first m c ⟨e0, e1, e2, e3⟩ t hz, eo]
      iintro ⟨H0, H1, H2, HS0, HS1, HS2, HS3⟩
      isplitl [HS0 HS1 HS2 HS3 Hg]
      · isplitr [Hg]
        · iexists (⟨e0, e1, e2, e3⟩ : St F)
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexists _; iexact H2
    · rw [PhiS_castSucc m c t, PhiS_pos m c _ hz]
      iintro ⟨⟨⟨%z, HS0, HS1, HS2, HS3⟩, Hg⟩, Ho, ⟨%d0, H0⟩, ⟨%d1, H1⟩, ⟨%d2, H2⟩⟩
      iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (stAt m c z (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      rw [← stAt_later m c z t hz, eo]
      iintro ⟨H0, H1, H2, HS0, HS1, HS2, HS3⟩
      isplitl [HS0 HS1 HS2 HS3 Hg]
      · isplitr [Hg]
        · iexists z
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 128 := N_0; omega), PhiA_eq]
  iintro ⟨⟨%z, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KDefs.lean ====
/-
  What the kernel keeps in its four scratch buffers from grid point to grid point, as pure functions.
  The grid is 4 batches × 32 row tiles. At each point the body writes one 256-row slice of the
  8192 × 16 scratch `Y` (the tile's rows of `W S`); at a batch's first tile it adds that batch's squared
  distance of `Sᵀ S` from the identity to the third accumulator; at a batch's last tile, when `Y` is
  whole, it adds the trace and the total of `Sᵀ Y` to the first two accumulators; the very first point
  zeroes all three first, and the very last point writes the loss from them.
  `stepSt` is one point's effect on the scratch contents, `stAt s₀ n` the contents after point `n` from
  arbitrary entry contents `s₀`. In closed form (`Inv`): after point `n` the accumulators hold the
  fold over the batches finished so far (`trAt`, `csAt`, `osAt`) and the rows of `Y` written in the
  current batch hold `Yb`; none of this depends on `s₀`.
-/
import proofs.«144528_j25563645346550_1_alg».proof.Proof.Gen.KernelIdeal.Frame
import proofs.«144528_j25563645346550_1_alg».proof.Proof.Gen.KernelIdeal.Skeleton
import Idealize.ShloMosaic.Lib.WritesUnit

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-! ## The body's four branch conditions, from the grid coordinates -/

/-- First point of the whole grid (batch 0, tile 0): the accumulators are zeroed. -/
abbrev c1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- First tile of a batch. -/
abbrev c2 (i : grid0.Coords) : Prop := (Scalar.cmpi .ne (Scalar.extui (Scalar.cmpi .eq (BitVec.ofNat 32 (i 1).val) 0#32)) 0#32) = 1#1
/-- Last tile of a batch. -/
abbrev c3 (i : grid0.Coords) : Prop := (Scalar.cmpi .ne (Scalar.extui (Scalar.cmpi .eq (BitVec.ofNat 32 (i 1).val) 31#32)) 0#32) = 1#1
/-- Last point of the whole grid. -/
abbrev c4 (i : grid0.Coords) : Prop := k0_cond4 i = 1#1

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val % 32 = 0 :=
  (by decide +kernel : ∀ t : Fin grid0.N, c2 (grid0.coords t) ↔ t.val % 32 = 0)
theorem hc3 : ∀ t : Fin cfg0.N, c3 (grid0.coords t) ↔ t.val % 32 = 31 :=
  (by decide +kernel : ∀ t : Fin grid0.N, c3 (grid0.coords t) ↔ t.val % 32 = 31)
theorem hc4 : ∀ t : Fin cfg0.N, c4 (grid0.coords t) ↔ t.val = 127 :=
  (by decide +kernel : ∀ t : Fin grid0.N, c4 (grid0.coords t) ↔ t.val = 127)
/-- The slice of `Y` a point writes starts at row 256 · (tile index). -/
theorem hoff : ∀ t : Fin cfg0.N, k0_off1 (grid0.coords t) = ![256 * (t.val % 32), 0] :=
  (by decide +kernel : ∀ t : Fin grid0.N, k0_off1 (grid0.coords t) = ![256 * (t.val % 32), 0])

/-! ## One point's effect on the scratch contents -/

/-- The contents of the four scratch buffers: `Y` and the trace, total and distance accumulators. -/
structure St (F : FTy → Type) [FloatOps F] where
  y5 : Vec F S8192x16 .f32
  a6 : Vec F S1x1 .f32
  a7 : Vec F S1x1 .f32
  a8 : Vec F S1x1 .f32

/-- `Y` with the point's 256-row slice overwritten by `p`. -/
def upd5 (i : grid0.Coords) (y : Vec F S8192x16 .f32) (p : Vec F S256x16 .f32) : Vec F S8192x16 .f32 :=
  fun idx => if h : ∀ a, k0_off1 i a ≤ (idx a).val ∧ (idx a).val < k0_off1 i a + S256x16.size a then
      p (Rect.unitLocal (s := S8192x16) (off := k0_off1 i) (size := S256x16.size) idx h)
    else y idx

open Classical in
/-- The scratch contents after the body at coordinates `i` on the blocks `x0` (of `W`) and `x1` (of `S`). -/
def stepSt (i : grid0.Coords) (x0 : Vec F S1x256x8192 .f32) (x1 : Vec F S1x8192x16 .f32) (s : St F) : St F :=
  let a6₁ : Vec F S1x1 .f32 := if c1 i then k0_pay1 (F := F) else s.a6
  let a7₁ : Vec F S1x1 .f32 := if c1 i then k0_pay2 (F := F) else s.a7
  let a8₁ : Vec F S1x1 .f32 := if c1 i then k0_pay3 (F := F) else s.a8
  let a8₂ : Vec F S1x1 .f32 := if c2 i then k0_pay4 x1 a8₁ else a8₁
  let y5' : Vec F S8192x16 .f32 := upd5 i s.y5 (k0_pay5 x0 x1)
  ⟨y5', if c3 i then k0_pay7 x1 y5' a6₁ else a6₁, if c3 i then k0_pay8 x1 y5' a7₁ else a7₁, a8₂⟩

open Classical in
/-- The output block's staging buffer after the body: the loss at the last point, untouched elsewhere. -/
def outSt (i : grid0.Coords) (s' : St F) (xo : Vec F S1x1 .f32) : Vec F S1x1 .f32 :=
  if c4 i then k0_pay9 s'.a6 s'.a7 s'.a8 else xo

/-! ## The scratch contents point by point -/

variable (m : (ℓ : Loc nD τ sig) → Buf (Elt F) ℓ)

/-- Point number `n` (taken mod 128) as a grid point. -/
def pt (n : ℕ) : Fin cfg0.N := ⟨n % 128, lt_of_lt_of_eq (Nat.mod_lt _ (by decide)) (show (128 : ℕ) = cfg0.N from N_0.symm)⟩

theorem pt_val (t : Fin cfg0.N) : pt t.val = t :=
  Fin.ext (Nat.mod_eq_of_lt (lt_of_lt_of_eq t.isLt (show cfg0.N = 128 from N_0)))

/-- The block of `W` the body finds at point `n`. -/
abbrev Wb (c : Dev nD) (n : ℕ) : Vec F S1x256x8192 .f32 := iblk m c 0 (pt n)
/-- The block of `S` the body finds at point `n`. -/
abbrev Sb (c : Dev nD) (n : ℕ) : Vec F S1x8192x16 .f32 := iblk m c 1 (pt n)

/-- The scratch contents after point `n`, from entry contents `s₀`. -/
def stAt (c : Dev nD) (s₀ : St F) : ℕ → St F
  | 0 => stepSt (grid0.coords (pt 0)) (Wb m c 0) (Sb m c 0) s₀
  | n + 1 => stepSt (grid0.coords (pt (n + 1))) (Wb m c (n + 1)) (Sb m c (n + 1)) (stAt c s₀ n)

/-! ## The closed forms -/

/-- Batch `k`'s `Y = W S`, tile by tile: row `r` is row `r % 256` of the product at tile `r / 256`. -/
def Yb (c : Dev nD) (k : ℕ) : Vec F S8192x16 .f32 := fun idx =>
  k0_pay5 (Wb m c (32 * k + (idx 0).val / 256)) (Sb m c (32 * k + (idx 0).val / 256))
    (fun a => match a with
      | ⟨0, _⟩ => ⟨(idx 0).val % 256, Nat.mod_lt _ (by decide)⟩
      | ⟨1, _⟩ => idx 1)

/-- The trace accumulator after `k` finished batches. -/
def trAt (c : Dev nD) : ℕ → Vec F S1x1 .f32
  | 0 => k0_pay1 (F := F)
  | k + 1 => k0_pay7 (Sb m c (32 * k + 31)) (Yb m c k) (trAt c k)
/-- The total accumulator after `k` finished batches. -/
def csAt (c : Dev nD) : ℕ → Vec F S1x1 .f32
  | 0 => k0_pay2 (F := F)
  | k + 1 => k0_pay8 (Sb m c (32 * k + 31)) (Yb m c k) (csAt c k)
/-- The distance accumulator after `k` started batches. -/
def osAt (c : Dev nD) : ℕ → Vec F S1x1 .f32
  | 0 => k0_pay3 (F := F)
  | k + 1 => k0_pay4 (Sb m c (32 * k)) (osAt c k)

/-- The loss the last point writes. -/
def outFinal (c : Dev nD) : Vec F S1x1 .f32 := k0_pay9 (trAt m c 4) (csAt m c 4) (osAt m c 4)

/-- What holds of the scratch contents after point `n`, whatever they were at entry. -/
structure Inv (c : Dev nD) (n : ℕ) (s : St F) : Prop where
  a6 : s.a6 = trAt m c ((n + 1) / 32)
  a7 : s.a7 = csAt m c ((n + 1) / 32)
  a8 : s.a8 = osAt m c (n / 32 + 1)
  y5 : ∀ idx : S8192x16.Idx, (idx 0).val < 256 * (n % 32 + 1) → s.y5 idx = Yb m c (n / 32) idx

end Cert.KernelIdeal.Body

end
-- ==== Proof.KRunLib.lean ====
/-
  Reading back what the body's stores leave: a store of a whole block leaves its payload whatever was
  there; the store of one 256-row slice of `Y` leaves the slice at the payload and the other rows as
  they were.
-/
import proofs.«144528_j25563645346550_1_alg».proof.Proof.KDefs
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3a : (![0, 0, 0] : Fin S1x256x8192.rank → ℕ) = fun _ => 0 := by funext a; fin_cases a <;> rfl
theorem hz3b : (![0, 0, 0] : Fin S1x8192x16.rank → ℕ) = fun _ => 0 := by funext a; fin_cases a <;> rfl
theorem hz2a : (![0, 0] : Fin S1x1.rank → ℕ) = fun _ => 0 := by funext a; fin_cases a <;> rfl
theorem hz2b : (![0, 0] : Fin S8192x16.rank → ℕ) = fun _ => 0 := by funext a; fin_cases a <;> rfl

/-- After a last store through the whole block the buffer reads the payload, whatever the earlier stores and contents. -/
theorem read_cons_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext x
  have e := View.read_writes_cons_emb v f (Rect.whole S) w L x
  rw [Rect.emb_whole_apply] at e
  exact e

/-- The raw contents after the one slice store read back: the slice at the payload, the rest as before. -/
theorem read_upd5 (i : grid0.Coords) (arg5 : Memref sig .tc .vmem S8192x16 .f32) (harg5 : arg5.IsWhole)
    (y5 : Vec F S8192x16 .f32) (p : Vec F S256x16 .f32) :
    View.read (Elt F) arg5.view (arg5.view.writes (Elt F) (harg5.unread y5)
      [⟨Rect.unit (s := S8192x16) (k0_off1 i) S256x16.size (k0_off1_inb i), p⟩]) = upd5 i y5 p := by
  funext idx
  rw [View.read_writes_cons_unit arg5.view (harg5.unread y5) (k0_off1_inb i) p [] idx rfl]
  unfold upd5
  rw [View.writes_nil, harg5.read_unread]

end Cert.KernelIdeal.Body

end
-- ==== Proof.KRunA.lean ====
/-
  The body at the grid's first point (batch 0, tile 0): the three accumulators are zeroed, the distance
  accumulator then takes the batch's term, and the tile's slice of `Y` is written.
-/
import proofs.«144528_j25563645346550_1_alg».proof.Proof.KRunLib
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runA (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : c1 i) (h2 : c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (k0_pay1 (F := F)) ∗ owns (c : Thread nD τ) arg7 fullShare (k0_pay2 (F := F)) ∗ owns (c : Thread nD τ) arg8 fullShare (k0_pay4 x1 (k0_pay3 (F := F)))) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr
    swap; · iexact H6
    ipureintro
    exact read_cons_whole _ _ hz2a _ _ _
  isplitl [H7]
  · iexists _; isplitr
    swap; · iexact H7
    ipureintro
    exact read_cons_whole _ _ hz2a _ _ _
  iexists _; isplitr
  swap; · iexact H8
  ipureintro
  rw [read_cons_whole _ _ hz2a]
  sl_unfold_words
  simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.readCov_unit_zero (S := S1x1) _ hz2a]

end Cert.KernelIdeal.Body

end
-- ==== Proof.KRunB.lean ====
/-
  The body at a later batch's first tile: the distance accumulator takes the batch's term and the tile's
  slice of `Y` is written.
-/
import proofs.«144528_j25563645346550_1_alg».proof.Proof.KRunLib
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runB (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (a6) ∗ owns (c : Thread nD τ) arg7 fullShare (a7) ∗ owns (c : Thread nD τ) arg8 fullShare (k0_pay4 x1 a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_cons_whole _ _ hz2a]
  sl_unfold_words
  simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.readCov_unit_zero (S := S1x1) _ hz2a]

end Cert.KernelIdeal.Body

end
-- ==== Proof.KRunC.lean ====
/-
  The body at a tile that is neither first nor last of its batch: only the tile's slice of `Y` is written.
-/
import proofs.«144528_j25563645346550_1_alg».proof.Proof.KRunLib
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runC (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : ¬c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (a6) ∗ owns (c : Thread nD τ) arg7 fullShare (a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, View.ld_unit_zero (S := S1x256x8192) hz3a, View.ld_unit_zero (S := S1x8192x16) hz3b]
    exact read_upd5 i arg5 harg5 y5 _
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

end Cert.KernelIdeal.Body

end
-- ==== Proof.KRunD.lean ====
/-
  The body at a batch's last tile (not the grid's last point): the tile's slice of `Y` is written, `Y` is then
  read whole, and the trace and total accumulators take the batch's terms.
-/
import proofs.«144528_j25563645346550_1_alg».proof.Proof.KRunLib
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runD (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : c3 i) (h4 : ¬c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (xo)
            ∗ owns (c : Thread nD τ) arg5 fullShare (upd5 i y5 (k0_pay5 x0 x1)) ∗ owns (c : Thread nD τ) arg6 fullShare (k0_pay7 x1 (upd5 i y5 (k0_pay5 x0 x1)) a6) ∗ owns (c : Thread nD τ) arg7 fullShare (k0_pay8 x1 (upd5 i y5 (k0_pay5 x0 x1)) a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H6]
  · iexists _; isplitr
    swap; · iexact H6
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H7]
  · iexists _; isplitr
    swap; · iexact H7
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  iexists _; isplitr; · ipureintro; exact harg8.read_unread _
  iexact H8

end Cert.KernelIdeal.Body

end
-- ==== Proof.KRunE.lean ====
/-
  The body at the grid's last point: as at any batch's last tile, and then the loss is written into the
  output block from the three accumulators.
-/
import proofs.«144528_j25563645346550_1_alg».proof.Proof.KRunLib
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runE (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h1 : ¬c1 i) (h2 : ¬c2 i) (h3 : c3 i) (h4 : c4 i)
    (x0 : Vec F S1x256x8192 .f32) (x1 : Vec F S1x8192x16 .f32) (xo : Vec F S1x1 .f32) (y5 : Vec F S8192x16 .f32) (a6 a7 a8 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare y5 ∗ owns (c : Thread nD τ) arg6 fullShare a6 ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare (k0_pay9 (k0_pay7 x1 (upd5 i y5 (k0_pay5 x0 x1)) a6) (k0_pay8 x1 (upd5 i y5 (k0_pay5 x0 x1)) a7) a8)
            ∗ owns (c : Thread nD τ) arg5 fullShare (upd5 i y5 (k0_pay5 x0 x1)) ∗ owns (c : Thread nD τ) arg6 fullShare (k0_pay7 x1 (upd5 i y5 (k0_pay5 x0 x1)) a6) ∗ owns (c : Thread nD τ) arg7 fullShare (k0_pay8 x1 (upd5 i y5 (k0_pay5 x0 x1)) a7) ∗ owns (c : Thread nD τ) arg8 fullShare (a8)) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  simp only [cc0__cut_ortho_kernel_eq_skeleton]; unfold cc0__cut_ortho_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H5]
  · iexists _; isplitr
    swap; · iexact H5
    ipureintro
    sl_unfold_words
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H6]
  · iexists _; isplitr
    swap; · iexact H6
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  isplitl [H7]
  · iexists _; isplitr
    swap; · iexact H7
    ipureintro
    sl_unfold_words
    rw [read_cons_whole _ _ hz2a]
    simp only [View.readAt_eq_ld, harg2.read_unread, harg3.read_unread, harg6.read_unread, harg7.read_unread, harg8.read_unread, View.ld_unit_zero (S := S1x256x8192) hz3a, View.ld_unit_zero (S := S1x8192x16) hz3b, View.ld_unit_zero (S := S1x1) hz2a, View.ld_unit_zero (S := S8192x16) hz2b, View.readCov_unit_zero (S := S1x1) _ hz2a]
    rw [← read_upd5 i arg5 harg5]
    rfl
  iexists _; isplitr; · ipureintro; exact harg8.read_unread _
  iexact H8

end Cert.KernelIdeal.Body

end
-- ==== Proof.KRun.lean ====
/-
  The kernel body's run on any staging and scratch memrefs, at any grid coordinates where the four
  branch conditions are nested as on the grid (the zeroing only at a first tile, the final write only at a
  last tile, no tile both first and last): from whole memrefs at given contents the body runs to the end
  and leaves the input blocks as they were, the scratch at `stepSt` of what it held, and the output block
  at `outSt`. By cases on the conditions: one symbolic run of the body per case.
-/
import proofs.«144528_j25563645346550_1_alg».proof.Proof.KRunA
import proofs.«144528_j25563645346550_1_alg».proof.Proof.KRunB
import proofs.«144528_j25563645346550_1_alg».proof.Proof.KRunC
import proofs.«144528_j25563645346550_1_alg».proof.Proof.KRunD
import proofs.«144528_j25563645346550_1_alg».proof.Proof.KRunE
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at coordinates `i`, from scratch contents `s`: it ends with the scratch at `stepSt i x0 x1 s` and the output
    block at `outSt`. -/
theorem run_body (c : Dev nD) (i : grid0.Coords) (arg2 : Memref sig .tc .vmem S1x256x8192 .f32) (harg2 : arg2.IsWhole) (arg3 : Memref sig .tc .vmem S1x8192x16 .f32) (harg3 : arg3.IsWhole) (arg4 : Memref sig .tc .vmem S1x1 .f32) (harg4 : arg4.IsWhole) (arg5 : Memref sig .tc .vmem S8192x16 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (h12 : c1 i → c2 i) (h43 : c4 i → c3 i) (h23 : ¬(c2 i ∧ c3 i))
    (x0 : Vec F S1x256x8192 .f32) (x1 : Vec F S1x8192x16 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s.y5 ∗ owns (c : Thread nD τ) arg6 fullShare s.a6 ∗ owns (c : Thread nD τ) arg7 fullShare s.a7 ∗ owns (c : Thread nD τ) arg8 fullShare s.a8
        ∗ (iprop(owns (c : Thread nD τ) arg2 fullShare x0 ∗ owns (c : Thread nD τ) arg3 fullShare x1
            ∗ owns (c : Thread nD τ) arg4 fullShare (outSt i (stepSt i x0 x1 s) xo)
            ∗ owns (c : Thread nD τ) arg5 fullShare (stepSt i x0 x1 s).y5 ∗ owns (c : Thread nD τ) arg6 fullShare (stepSt i x0 x1 s).a6
            ∗ owns (c : Thread nD τ) arg7 fullShare (stepSt i x0 x1 s).a7 ∗ owns (c : Thread nD τ) arg8 fullShare (stepSt i x0 x1 s).a8) -∗ K ⟨⟩))
      ⊢ wp frame (wpE (defs₀ (F := F)) Variants.none c none) E (cc0__cut_ortho_kernel i arg2 harg2 arg3 harg3 arg4 harg4 arg5 harg5 arg6 harg6 arg7 harg7 arg8 harg8) K := by
  obtain ⟨y5, a6, a7, a8⟩ := s
  by_cases h2 : c2 i
  · have h3 : ¬c3 i := fun h => h23 ⟨h2, h⟩
    have h4 : ¬c4 i := fun h => h3 (h43 h)
    by_cases h1 : c1 i
    · simp only [stepSt, outSt, if_pos h1, if_pos h2, if_neg h3, if_neg h4]
      exact runA c i arg2 harg2 arg3 harg3 arg4 harg4 arg5 harg5 arg6 harg6 arg7 harg7 arg8 harg8 h1 h2 h3 h4 x0 x1 xo y5 a6 a7 a8 E K
    · simp only [stepSt, outSt, if_neg h1, if_pos h2, if_neg h3, if_neg h4]
      exact runB c i arg2 harg2 arg3 harg3 arg4 harg4 arg5 harg5 arg6 harg6 arg7 harg7 arg8 harg8 h1 h2 h3 h4 x0 x1 xo y5 a6 a7 a8 E K
  · have h1 : ¬c1 i := fun h => h2 (h12 h)
    by_cases h3 : c3 i
    · by_cases h4 : c4 i
      · simp only [stepSt, outSt, if_neg h1, if_neg h2, if_pos h3, if_pos h4]
        exact runE c i arg2 harg2 arg3 harg3 arg4 harg4 arg5 harg5 arg6 harg6 arg7 harg7 arg8 harg8 h1 h2 h3 h4 x0 x1 xo y5 a6 a7 a8 E K
      · simp only [stepSt, outSt, if_neg h1, if_neg h2, if_pos h3, if_neg h4]
        exact runD c i arg2 harg2 arg3 harg3 arg4 harg4 arg5 harg5 arg6 harg6 arg7 harg7 arg8 harg8 h1 h2 h3 h4 x0 x1 xo y5 a6 a7 a8 E K
    · have h4 : ¬c4 i := fun h => h3 (h43 h)
      simp only [stepSt, outSt, if_neg h1, if_neg h2, if_neg h3, if_neg h4]
      exact runC c i arg2 harg2 arg3 harg3 arg4 harg4 arg5 harg5 arg6 harg6 arg7 harg7 arg8 harg8 h1 h2 h3 h4 x0 x1 xo y5 a6 a7 a8 E K

end Cert.KernelIdeal.Body

end
-- ==== Proof.KInv.lean ====
/-
  The closed forms of the scratch contents hold after every grid point, by induction on the point:
  the conditions are decided by the point's number (first point, first and last tile of a batch), the
  slice a point writes is rows 256·(n mod 32) … of `Y`, and the rows below it were written by the
  earlier tiles of the same batch.
-/
import proofs.«144528_j25563645346550_1_alg».proof.Proof.KDefs

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- Below 128 a point's number is its own value. -/
theorem pt_val_of_lt {n : ℕ} (hn : n < 128) : (pt n).val = n := Nat.mod_eq_of_lt hn

/-- The rows of `Y` up to the end of point `n`'s slice hold batch `n / 32`'s product, once the rows
    below the slice do: a row inside the slice `[256 (n mod 32), 256 (n mod 32) + 256)` is the payload's row
    `r - 256 (n mod 32) = r mod 256` at tile `r / 256 = n mod 32`, i.e. at point `32 (n / 32) + r / 256 = n`;
    a row below it is untouched. -/
theorem upd5_rows (c : Dev nD) (n : ℕ) (hn : n < 128) (y : Vec F S8192x16 .f32)
    (hy : ∀ idx : S8192x16.Idx, (idx 0).val < 256 * (n % 32) → y idx = Yb m c (n / 32) idx) :
    ∀ idx : S8192x16.Idx, (idx 0).val < 256 * (n % 32 + 1) →
      upd5 (grid0.coords (pt n)) y (k0_pay5 (Wb m c n) (Sb m c n)) idx = Yb m c (n / 32) idx := by
  intro idx hidx
  have hoffn : k0_off1 (grid0.coords (pt n)) = ![256 * (n % 32), 0] := by
    have h := hoff (pt n)
    rwa [pt_val_of_lt hn] at h
  have h1 : (idx 1).val < 16 := (idx 1).isLt
  unfold upd5
  by_cases hr : 256 * (n % 32) ≤ (idx 0).val
  · have h : ∀ a, k0_off1 (grid0.coords (pt n)) a ≤ (idx a).val ∧
        (idx a).val < k0_off1 (grid0.coords (pt n)) a + S256x16.size a := by
      rw [hoffn]
      refine Fin.forall_fin_two.mpr ⟨⟨hr, ?_⟩, ⟨Nat.zero_le _, ?_⟩⟩
      · show (idx 0).val < 256 * (n % 32) + 256
        omega
      · show (idx 1).val < 0 + 16
        omega
    rw [dif_pos h]
    have hq : 32 * (n / 32) + (idx 0).val / 256 = n := by omega
    unfold Yb
    rw [hq]
    congr 1
    funext a
    refine Fin.ext ?_
    rw [Rect.unitLocal_val, hoffn]
    match a with
    | ⟨0, _⟩ =>
      show (idx 0).val - 256 * (n % 32) = (idx 0).val % 256
      omega
    | ⟨1, _⟩ =>
      show (idx 1).val - 0 = (idx 1).val
      omega
  · have h : ¬ ∀ a, k0_off1 (grid0.coords (pt n)) a ≤ (idx a).val ∧
        (idx a).val < k0_off1 (grid0.coords (pt n)) a + S256x16.size a := by
      intro h
      have h0 := (h 0).1
      rw [hoffn] at h0
      exact hr h0
    rw [dif_neg h]
    exact hy idx (by omega)

/-- One point carries the closed forms on: from the closed forms after point `n - 1` (or nothing, at
    the first point, which zeroes the accumulators) to those after point `n`. -/
theorem step_inv (c : Dev nD) (n : ℕ) (hn : n < 128) (s : St F)
    (hs : n ≠ 0 → Inv m c (n - 1) s) :
    Inv m c n (stepSt (grid0.coords (pt n)) (Wb m c n) (Sb m c n) s) := by
  have hpv : (pt n).val = n := pt_val_of_lt hn
  have h1 : c1 (grid0.coords (pt n)) ↔ n = 0 := by
    have h := hc1 (pt n)
    rwa [hpv] at h
  have h2 : c2 (grid0.coords (pt n)) ↔ n % 32 = 0 := by
    have h := hc2 (pt n)
    rwa [hpv] at h
  have h3 : c3 (grid0.coords (pt n)) ↔ n % 32 = 31 := by
    have h := hc3 (pt n)
    rwa [hpv] at h
  -- the rows of `Y` written so far in this batch: those below the slice are the earlier tiles'
  have hy : ∀ idx : S8192x16.Idx, (idx 0).val < 256 * (n % 32 + 1) →
      upd5 (grid0.coords (pt n)) s.y5 (k0_pay5 (Wb m c n) (Sb m c n)) idx = Yb m c (n / 32) idx := by
    refine upd5_rows m c n hn s.y5 (fun idx hidx => ?_)
    have h' := (hs (by omega)).y5 idx (by omega)
    rwa [show (n - 1) / 32 = n / 32 by omega] at h'
  -- at a batch's last tile `Y` is whole: all its 8192 = 256 · 32 rows are written
  have hyfull : n % 32 = 31 →
      upd5 (grid0.coords (pt n)) s.y5 (k0_pay5 (Wb m c n) (Sb m c n)) = Yb m c (n / 32) := by
    intro h31
    funext idx
    have h0 : (idx 0).val < 8192 := (idx 0).isLt
    exact hy idx (by omega)
  refine ⟨?_, ?_, ?_, hy⟩
  · -- the trace accumulator: zeroed at the first point, advanced at a batch's last tile
    simp only [stepSt]
    by_cases hn0 : n = 0
    · have h31 : ¬ n % 32 = 31 := by omega
      rw [if_neg (fun h => h31 (h3.mp h)), if_pos (h1.mpr hn0), hn0]
      rfl
    · have hp := hs hn0
      rw [if_neg (fun h => hn0 (h1.mp h)), hp.a6, show (n - 1 + 1) / 32 = n / 32 by omega]
      by_cases h31 : n % 32 = 31
      · rw [if_pos (h3.mpr h31), hyfull h31, show (n + 1) / 32 = n / 32 + 1 by omega]
        show _ = k0_pay7 (Sb m c (32 * (n / 32) + 31)) (Yb m c (n / 32)) (trAt m c (n / 32))
        rw [show 32 * (n / 32) + 31 = n by omega]
      · rw [if_neg (fun h => h31 (h3.mp h)), show (n + 1) / 32 = n / 32 by omega]
  · -- the total accumulator, likewise
    simp only [stepSt]
    by_cases hn0 : n = 0
    · have h31 : ¬ n % 32 = 31 := by omega
      rw [if_neg (fun h => h31 (h3.mp h)), if_pos (h1.mpr hn0), hn0]
      rfl
    · have hp := hs hn0
      rw [if_neg (fun h => hn0 (h1.mp h)), hp.a7, show (n - 1 + 1) / 32 = n / 32 by omega]
      by_cases h31 : n % 32 = 31
      · rw [if_pos (h3.mpr h31), hyfull h31, show (n + 1) / 32 = n / 32 + 1 by omega]
        show _ = k0_pay8 (Sb m c (32 * (n / 32) + 31)) (Yb m c (n / 32)) (csAt m c (n / 32))
        rw [show 32 * (n / 32) + 31 = n by omega]
      · rw [if_neg (fun h => h31 (h3.mp h)), show (n + 1) / 32 = n / 32 by omega]
  · -- the distance accumulator: zeroed at the first point, advanced at a batch's first tile
    simp only [stepSt]
    by_cases hn0 : n = 0
    · rw [if_pos (h2.mpr (by omega)), if_pos (h1.mpr hn0), hn0]
      rfl
    · have hp := hs hn0
      rw [if_neg (fun h => hn0 (h1.mp h)), hp.a8]
      by_cases h32 : n % 32 = 0
      · rw [if_pos (h2.mpr h32), show (n - 1) / 32 + 1 = n / 32 by omega]
        show _ = k0_pay4 (Sb m c (32 * (n / 32))) (osAt m c (n / 32))
        rw [show 32 * (n / 32) = n by omega]
      · rw [if_neg (fun h => h32 (h2.mp h)), show (n - 1) / 32 = n / 32 by omega]

/-- The closed forms hold after every point. -/
theorem inv (c : Dev nD) (s₀ : St F) (n : ℕ) (hn : n < 128) : Inv m c n (stAt m c s₀ n) := by
  induction n with
  | zero => exact step_inv m c 0 hn s₀ (fun h => absurd rfl h)
  | succ k ih =>
    refine step_inv m c (k + 1) hn (stAt m c s₀ k) (fun _ => ?_)
    rw [Nat.add_sub_cancel]
    exact ih (by omega)

/-- So the last point writes `outFinal`, whatever the scratch held at entry. -/
theorem outSt_last (c : Dev nD) (s₀ : St F) (xo : Vec F S1x1 .f32) :
    outSt (grid0.coords (pt 127)) (stAt m c s₀ 127) xo = outFinal m c := by
  have h4 : c4 (grid0.coords (pt 127)) := (hc4 (pt 127)).mpr rfl
  have I := inv m c s₀ 127 (by decide)
  unfold outSt
  rw [if_pos h4, I.a6, I.a7, I.a8]
  rfl

end Cert.KernelIdeal.Body

end
-- ==== Proof.KFrame.lean ====
/-
  The kernel program's frame run, over any float instance. The proof data: each input window's buffer
  holds its block of the array the region finds; the output block's buffer ends at the loss
  (`outFinal`); between points the four scratch buffers hold `stAt z n` for SOME entry contents `z`
  (whatever they held when the region was entered). The body obligation at a point is the body's run
  (`run_body`) from the scratch contents the point before left; at the last point the output block
  is the loss whatever `z` was (`outSt_last`), elsewhere the body leaves the output block untouched and
  the pipeline does not write it back. The launch is the library's frame run with a tracking invariant
  and a host tail (the reshape of the 1 × 1 result).
-/
import proofs.«144528_j25563645346550_1_alg».proof.Proof.KRun
import proofs.«144528_j25563645346550_1_alg».proof.Proof.KInv
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S1x256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev sc0 : Memref sig .tc .vmem S8192x16 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3

/-- The class invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, c4 (grid0.coords t) → cfg0.idle 2 (grid0.coords t) = false := by decide +kernel
theorem idleAt2 : ∀ t : Fin cfg0.N, ¬c4 (grid0.coords t) → cfg0.idle 2 (grid0.coords t) = true := by decide +kernel
theorem noFlush2 : ∀ t : Fin cfg0.N, ¬c4 (grid0.coords t) → (cfg0.win 2).flush t = false := by decide +kernel

/-! ## The scratch contents at a grid point -/

theorem Wb_val (c : Dev nD) (t : Fin cfg0.N) : Wb m c t.val = iblk m c 0 t := by
  have h : ∀ p q : Fin cfg0.N, p = q → Wb m c p.val = iblk m c 0 q := fun p q e => by
    subst e; show iblk m c 0 (pt p.val) = iblk m c 0 p; rw [pt_val]
  exact h t t rfl
theorem Sb_val (c : Dev nD) (t : Fin cfg0.N) : Sb m c t.val = iblk m c 1 t := by
  have h : ∀ p q : Fin cfg0.N, p = q → Sb m c p.val = iblk m c 1 q := fun p q e => by
    subst e; show iblk m c 1 (pt p.val) = iblk m c 1 p; rw [pt_val]
  exact h t t rfl
theorem coords_pt (t : Fin cfg0.N) : grid0.coords (pt t.val) = grid0.coords t := congrArg grid0.coords (pt_val t)

/-- At the first point the contents are one step from the entry contents. -/
theorem stAt_first (c : Dev nD) (z : St F) (t : Fin cfg0.N) (hz : t.val = 0) :
    stAt m c z t.val = stepSt (grid0.coords t) (iblk m c 0 t) (iblk m c 1 t) z := by
  rw [← Wb_val m c t, ← Sb_val m c t, ← coords_pt t, hz]; rfl

/-- At a later point they are one step from what the point before left. -/
theorem stAt_later (c : Dev nD) (z : St F) (t : Fin cfg0.N) (hz : t.val ≠ 0) :
    stAt m c z t.val = stepSt (grid0.coords t) (iblk m c 0 t) (iblk m c 1 t) (stAt m c z (t.val - 1)) := by
  rw [← Wb_val m c t, ← Sb_val m c t, ← coords_pt t]
  obtain ⟨n, hn⟩ : ∃ n, t.val = n + 1 := ⟨t.val - 1, by omega⟩
  rw [hn]; rfl

/-- At the last point the output block ends at the loss. -/
theorem outSt_at (c : Dev nD) (z : St F) (xo : Vec F S1x1 .f32) (t : Fin cfg0.N) (ht : t.val = 127) :
    outSt (grid0.coords t) (stAt m c z t.val) xo = outFinal m c := by
  have h := outSt_last m c z xo
  rw [← ht, coords_pt t] at h
  exact h

/-! ## The invariant and the proof data -/

/-- The region invariant before point `n`: at entry the class's (every scratch at anything); afterwards the four
    scratch buffers at `stAt z (n - 1)` for some entry contents `z`, and the generator register at some state. -/
def PhiS (c : Dev nD) : ℕ → sProp 𝕄
  | 0 => Pipeline.ΦA spec0 c
  | n + 1 => iprop((∃ z : St F, owns (c : Thread nD τ) sc0 fullShare (stAt m c z n).y5 ∗ owns (c : Thread nD τ) sc1 fullShare (stAt m c z n).a6
      ∗ owns (c : Thread nD τ) sc2 fullShare (stAt m c z n).a7 ∗ owns (c : Thread nD τ) sc3 fullShare (stAt m c z n).a8) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop((∃ z : St F, owns (c : Thread nD τ) sc0 fullShare (stAt m c z n).y5 ∗ owns (c : Thread nD τ) sc1 fullShare (stAt m c z n).a6
      ∗ owns (c : Thread nD τ) sc2 fullShare (stAt m c z n).a7 ∗ owns (c : Thread nD τ) sc3 fullShare (stAt m c z n).a8) ∗ (∃ r, prngReg c r)) := rfl
theorem PhiS_pos (c : Dev nD) (n : ℕ) (hz : n ≠ 0) :
    PhiS m c n = iprop((∃ z : St F, owns (c : Thread nD τ) sc0 fullShare (stAt m c z (n - 1)).y5 ∗ owns (c : Thread nD τ) sc1 fullShare (stAt m c z (n - 1)).a6
      ∗ owns (c : Thread nD τ) sc2 fullShare (stAt m c z (n - 1)).a7 ∗ owns (c : Thread nD τ) sc3 fullShare (stAt m c z (n - 1)).a8) ∗ (∃ r, prngReg c r)) := by
  cases n with
  | zero => exact absurd rfl hz
  | succ n => rfl

/-- The proof data: the arrays as the region finds them; after the body each input's buffer at its block and the
    output's at the loss; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outFinal m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 128 := lt_of_lt_of_eq t.isLt (show cfg0.N = 128 from N_0)
  have h12 : c1 (grid0.coords t) → c2 (grid0.coords t) := fun h => (hc2 t).mpr (by rw [(hc1 t).mp h])
  have h43 : c4 (grid0.coords t) → c3 (grid0.coords t) := fun h => (hc3 t).mpr (by rw [(hc4 t).mp h])
  have h23 : ¬(c2 (grid0.coords t) ∧ c3 (grid0.coords t)) := fun h => by
    have h2 := (hc2 t).mp h.1; have h3 := (hc3 t).mp h.2; omega
  by_cases h4 : c4 (grid0.coords t)
  · have ht : t.val = 127 := (hc4 t).mp h4
    have hz : t.val ≠ 0 := by omega
    rw [show (dats m 0 c).leavesExact 2 t = owns (c : Thread nD τ) (ms2 t) fullShare ((dats m 0 c).after 2 t) from by
      unfold Dat.leavesExact; rw [liveAt2 t h4], after0_2]
    rw [PhiS_castSucc m c t, PhiS_pos m c _ hz]
    iintro ⟨⟨⟨%z, HS0, HS1, HS2, HS3⟩, Hg⟩, Ho, ⟨%d0, H0⟩, ⟨%d1, H1⟩, ⟨%d2, H2⟩⟩
    iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (stAt m c z (t.val - 1)) Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    rw [← stAt_later m c z t hz, outSt_at m c z _ t ht]
    iintro ⟨H0, H1, H2, HS0, HS1, HS2, HS3⟩
    isplitl [HS0 HS1 HS2 HS3 Hg]
    · isplitr [Hg]
      · iexists z
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    iexact H2
  · rw [Dat.leavesExact_idle (dats m 0 c) 2 t (idleAt2 t h4) (noFlush2 t h4)]
    have eo : ∀ (s' : St F) (xo : Vec F S1x1 .f32), outSt (grid0.coords t) s' xo = xo := fun s' xo => by
      unfold outSt; exact if_neg h4
    by_cases hz : t.val = 0
    · rw [PhiS_castSucc m c t, PhiS_zero m c _ hz, PhiA_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩⟩
      iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (⟨e0, e1, e2, e3⟩ : St F) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      rw [← stAt_first m c ⟨e0, e1, e2, e3⟩ t hz, eo]
      iintro ⟨H0, H1, H2, HS0, HS1, HS2, HS3⟩
      isplitl [HS0 HS1 HS2 HS3 Hg]
      · isplitr [Hg]
        · iexists (⟨e0, e1, e2, e3⟩ : St F)
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexists _; iexact H2
    · rw [PhiS_castSucc m c t, PhiS_pos m c _ hz]
      iintro ⟨⟨⟨%z, HS0, HS1, HS2, HS3⟩, Hg⟩, Ho, ⟨%d0, H0⟩, ⟨%d1, H1⟩, ⟨%d2, H2⟩⟩
      iapply (run_body c (grid0.coords t) (ms0 t) (hs0 t) (ms1 t) (hs1 t) (ms2 t) (hs2 t) sc0 (Memref.isWhole_whole _) sc1 (Memref.isWhole_whole _) sc2 (Memref.isWhole_whole _) sc3 (Memref.isWhole_whole _) h12 h43 h23 (iblk m c 0 t) (iblk m c 1 t) _ (stAt m c z (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      rw [← stAt_later m c z t hz, eo]
      iintro ⟨H0, H1, H2, HS0, HS1, HS2, HS3⟩
      isplitl [HS0 HS1 HS2 HS3 Hg]
      · isplitr [Hg]
        · iexists z
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 128 := N_0; omega), PhiA_eq]
  iintro ⟨⟨%z, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KTail.lean ====
/-
  The kernel program's run with its results named: the first result is the softmax array the region
  finds (an input window's array ends as it was found), the second the reshape of the 1 × 1 output
  array, which the pipeline writes back once, at the last point, from the output block's buffer: the loss.
-/
import proofs.«144528_j25563645346550_1_alg».proof.Proof.KFrame
import Idealize.ShloMosaic.Lib.ValueIdx
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The softmax array ends as the region found it. -/
theorem arrAt1 (c : Dev nD) : (dats m 0 c).arrAt 1 cfg0.N = V m c main_v10 :=
  ((dats m 0 c).arrAt_in 1 rfl _).trans (A_eq m c 1)

/-- A 1 × 1 array has one index: any two are equal. -/
theorem oneEntry_idx_eq (x y : S1x1.Idx) : x = y :=
  funext fun a => Fin.ext (by
    match a with
    | ⟨0, _⟩ =>
      have hx : (x 0).val < 1 := (x 0).isLt
      have hy : (y 0).val < 1 := (y 0).isLt
      show (x 0).val = (y 0).val
      omega
    | ⟨1, _⟩ =>
      have hx : (x 1).val < 1 := (x 1).isLt
      have hy : (y 1).val < 1 := (y 1).isLt
      show (x 1).val = (y 1).val
      omega)

/-- The output window's block at any point is the whole 1 × 1 array: contents read through it are themselves. -/
theorem read_outBlock (t : Fin cfg0.N) (G : Vec F S1x1 .f32) :
    ((cfg0.win 2).blk t).view.read (Elt F) G = G := by
  funext j
  show G (((cfg0.win 2).blk t).view.emb j) = G j
  exact congrArg G (oneEntry_idx_eq _ _)

/-- What a point writes back from the output block's buffer is the loss, read through the point's block:
    the buffer holds the loss after the body at every point, and the block is the whole array. -/
theorem flushed_out_eq (c : Dev nD) (t : Fin cfg0.N) :
    (dats m 0 c).flushed 2 t = ((cfg0.win 2).blk t).view.read (Elt F) (outFinal m c) := by
  show (cfg0.win 2).cut (grid0.coords t) ((dats m 0 c).after 2 t) = _
  rw [after0_2, read_outBlock]
  funext j
  exact congrArg (outFinal m c) (oneEntry_idx_eq _ _)

/-- The last point of the grid (batch 3, tile 31). -/
def lastPt : Fin cfg0.N := pt 127

theorem lastPt_val : lastPt.val = 127 := rfl

/-- An index of the output array is in a point's block iff each coordinate is in the block's range on its axis. -/
theorem mem_outBlock (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v11).slice (win0_2.rect t)).set ↔ _
  rw [View.set_slice_whole, Rect.mem_set_unit]
  exact Iff.rfl

/-- Every index of the output array lies in the block of the last point, the one point that writes it back:
    the block index is 0 on both axes and the block is 1 × 1. -/
theorem outBlock_covers (i : S1x1.Idx) :
    ∃ t : Fin cfg0.N, (cfg0.win 2).flush t = true ∧ i ∈ ((cfg0.win 2).blk t).view.set := by
  refine ⟨lastPt, (flush0_2 lastPt).mpr (by rw [lastPt_val]), ?_⟩
  rw [mem_outBlock]
  intro a
  match a with
  | ⟨0, _⟩ =>
    have hi : (i 0).val < 1 := (i 0).isLt
    show 0 * 1 ≤ (i 0).val ∧ (i 0).val < 0 * 1 + 1
    omega
  | ⟨1, _⟩ =>
    have hi : (i 1).val < 1 := (i 1).isLt
    show 0 * 1 ≤ (i 1).val ∧ (i 1).val < 0 * 1 + 1
    omega

/-- The output array ends at the loss: its one block is written back once, at the last point. -/
theorem arrAt2 (c : Dev nD) : (dats m 0 c).arrAt 2 cfg0.N = outFinal m c := by
  exact (dats m 0 c).arrAt_eq_of_cover 2 (outFinal m c) (fun t _ => flushed_out_eq m c t) outBlock_covers

/-- The reshape after the region reads the output array's one entry. -/
theorem tail_v12 (c : Dev nD) :
    Pipeline.afterTail₀ cfgs (dats m) 0 (V0 m) [hostOps1] c main_v12 = fun _ => outFinal m c (ix2 (0 : Fin 1) (0 : Fin 1)) := by
  unfold Pipeline.afterTail₀
  show StableHlo.after hostOps1 _ (Proc.devRef .tc main_v12) = _
  after_results
  -- the region leaves the output array at the loss
  have e : Pipeline.withArrays (cfgs 0).spec c (V0 m c) (fun w => (dats m 0 c).arrAt w (cfgs 0).N) (Proc.devRef .tc main_v11) = outFinal m c :=
    (Pipeline.withArrays_arr spec0 launch0.win.arr_inj c _ _ 2).trans (arrAt2 m c)
  funext i
  show shapeCast S_ (Pipeline.withArrays (cfgs 0).spec c (V0 m c) (fun w => (dats m 0 c).arrAt w (cfgs 0).N) (Proc.devRef .tc main_v11)) shapeCasts_S1x1_S_ i = _
  -- the scalar's one index and the array's entry (0, 0) are both at row-major position 0
  refine (shapeCast_apply _ shapeCasts_S1x1_S_ i (ix2 (0 : Fin 1) (0 : Fin 1)) ?_).trans (congrFun e _)
  rw [Shape.rowMajor_val_two]
  exact (Shape.rowMajorPi_zero _ _).symm

/-- The run with the results named. -/
theorem run_named : θ_run defs (onTc (τ := τ) (main (F := F))) ⟨m, fun _ => 0, ρ⟩ (fun r => ∀ c : Dev nD,
      r.2.mem ((c.tc : Thread nD τ).loc main_v10) = V m c main_v10
      ∧ r.2.mem ((c.tc : Thread nD τ).loc main_v12) = (fun _ => outFinal m c (ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c => ⟨((h c).1 1).trans (arrAt1 m c),
      ((h c).2 main_v12 (Pipeline.mem_restRefs_of main_v12 (by decide) (by decide))).trans (tail_v12 m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Body

end
-- ==== Proof.Softmax.lean ====
/-
  The softmax over the last axis of a 4 × 8192 × 16 array as both programs compute it on the host:
  subtract each row's maximum, exponentiate, divide by the row's sum of exponentials. Stated once,
  over any float instance, so that the kernel's and the reference's host lines are the same function
  of the logits; and, over the extended reals, real-valued whenever the logits are
  (`smx_real`): the row maximum of reals is real, the exponential of a real is a positive real, a sum
  of sixteen positive reals is a positive real, and a real divided by a non-zero real is real.
-/
import Idealize.ShloMosaic.PureOps.Ideal
import Idealize.ShloMosaic.PureOps.Ideal.Laws
import Mathlib.Data.Finset.Fold
import Mathlib.Data.EReal.Operations

noncomputable section

namespace Cert.Smx

open Idealize.ShloMosaic

abbrev A : Shape := ⟨3, ![4, 8192, 16]⟩
abbrev R2 : Shape := ⟨2, ![4, 8192]⟩
abbrev R3 : Shape := ⟨3, ![4, 8192, 1]⟩
abbrev Z : Shape := ⟨0, ![]⟩

/-- The shape relations the softmax's host operations take. -/
structure Rel : Prop where
  red : A.ReducesTo [2] R2
  hz : 0 < Z.numel
  b0 : Z.BroadcastsInDim R2 (![] : Fin 0 → Fin R2.rank)
  b1 : R2.BroadcastsInDim R3 (![0, 1] : Fin 2 → Fin R3.rank)
  b2 : R3.BroadcastsInDim A (![0, 1, 2] : Fin 3 → Fin A.rank)

variable {F : FTy → Type} [FloatOps F]

/-- Each row's maximum, floored at `-∞` (the pattern `0xFF800000`). -/
def rowMax (h : Rel) (L : FVec F A .f32) : FVec F R2 .f32 :=
  maximumf (broadcastInDim R2 ![] h.b0 (constant Z .f32 0xFF800000#32))
    (Host.reduce FloatOps.maximumf L (constant Z .f32 0xFF800000#32) h.red h.hz)

/-- The exponentials of the logits less their row's maximum. -/
def expShift (h : Rel) (L : FVec F A .f32) : FVec F A .f32 :=
  Host.exp (subf L (broadcastInDim A ![0, 1, 2] h.b2 (broadcastInDim R3 ![0, 1] h.b1 (rowMax h L))))

/-- The softmax over the last axis. -/
def smx (h : Rel) (L : FVec F A .f32) : FVec F A .f32 :=
  Host.divf (expShift h L)
    (broadcastInDim A ![0, 1, 2] h.b2 (broadcastInDim R3 ![0, 1] h.b1
      (Host.reduceAdd (expShift h L) (constant Z .f32 0x00000000#32) h.red h.hz)))

/-- The last axis dropped from the array's shape leaves the rows' shape: the fact that names, for a row
    and a position in it, the array index a one-axis reduction reads. -/
theorem reduces : A.Reduces [2] R2 := by decide

/-- The pattern `0xFF800000` is `-∞`. -/
theorem ofBits_ninf : Ideal.ofBits .f32 0xFF800000#32 = (⊥ : EReal) := by simp [Ideal.ofBits, Ideal.ieee]

/-- A broadcast reads its operand at some index. -/
theorem broadcast_reads {s t : Shape} {α : Type} (dims : Fin s.rank → Fin t.rank) (hb : s.BroadcastsInDim t dims)
    (x : s.Idx → α) (j : t.Idx) : ∃ k, broadcastInDim t dims hb x j = x k := ⟨_, rfl⟩

/-- The maximum from `-∞` over a non-empty finite family of reals is real: it is at least one of them, so not
    `-∞`, and each of them is below `+∞`, so it is. -/
theorem fold_max_real {n : ℕ} (hn : 0 < n) (f : Fin n → EReal) (hf : ∀ k, ∃ r : ℝ, f k = (r : EReal)) :
    ∃ r : ℝ, (Finset.univ : Finset (Fin n)).fold max ⊥ f = (r : EReal) := by
  have hbot : (Finset.univ : Finset (Fin n)).fold max ⊥ f ≠ ⊥ := by
    obtain ⟨r, hr⟩ := hf ⟨0, hn⟩
    have hle : (r : EReal) ≤ (Finset.univ : Finset (Fin n)).fold max ⊥ f :=
      (Finset.le_fold_max _).mpr (Or.inr ⟨⟨0, hn⟩, Finset.mem_univ _, hr ▸ le_rfl⟩)
    intro hb
    rw [hb] at hle
    exact absurd hle (not_le.mpr (EReal.bot_lt_coe r))
  have htop : (Finset.univ : Finset (Fin n)).fold max ⊥ f ≠ ⊤ := by
    have hlt : (Finset.univ : Finset (Fin n)).fold max ⊥ f < ⊤ :=
      (Finset.fold_max_lt _).mpr ⟨bot_lt_top, fun k _ => by
        obtain ⟨r, hr⟩ := hf k
        rw [hr]; exact EReal.coe_lt_top r⟩
    exact ne_of_lt hlt
  exact ⟨_, (EReal.coe_toReal htop hbot).symm⟩

/-- The inclusion of the reals in the extended reals carries a finite sum to the sum. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Every row's maximum of real logits is real: the maximum over the row's sixteen entries. -/
theorem rowMax_real (h : Rel) (L : FVec Ideal A .f32) (hL : ∀ i, ∃ r : ℝ, L i = (r : EReal)) (j : R2.Idx) :
    ∃ r : ℝ, rowMax (F := Ideal) h L j = (r : EReal) := by
  have e : rowMax (F := Ideal) h L j
      = max (Ideal.ofBits .f32 0xFF800000#32)
          ((Finset.univ : Finset (Fin (A.size 2))).fold max (Ideal.ofBits .f32 0xFF800000#32) (L ∘ reduces.lift j)) := by
    show max (Ideal.ofBits .f32 0xFF800000#32)
        (Host.reduce FloatOps.maximumf L (constant Z .f32 0xFF800000#32) h.red h.hz j) = _
    rw [Host.reduce_eq_fold_single FloatOps.maximumf L _ h.red reduces h.hz j]
    rfl
  rw [e, ofBits_ninf, max_bot_left]
  exact fold_max_real (by decide) _ fun k => hL _

/-- Every shifted exponential is a positive real: the exponential of a real less a real. -/
theorem expShift_pos (h : Rel) (L : FVec Ideal A .f32) (hL : ∀ i, ∃ r : ℝ, L i = (r : EReal)) (i : A.Idx) :
    ∃ r : ℝ, 0 < r ∧ expShift (F := Ideal) h L i = (r : EReal) := by
  obtain ⟨l, hl⟩ := hL i
  obtain ⟨k1, e1⟩ := broadcast_reads ![0, 1, 2] h.b2 (broadcastInDim R3 ![0, 1] h.b1 (rowMax (F := Ideal) h L)) i
  obtain ⟨k2, e2⟩ := broadcast_reads ![0, 1] h.b1 (rowMax (F := Ideal) h L) k1
  obtain ⟨m, hm⟩ := rowMax_real h L hL k2
  refine ⟨Real.exp (l - m), Real.exp_pos _, ?_⟩
  show Ideal.exp (L i - broadcastInDim A ![0, 1, 2] h.b2 (broadcastInDim R3 ![0, 1] h.b1 (rowMax (F := Ideal) h L)) i) = _
  rw [e1, e2, hl, hm, ← EReal.coe_sub, Ideal.exp_coe]

/-- Every row's sum of shifted exponentials is a positive real: zero plus sixteen positive reals. -/
theorem rowSum_pos (h : Rel) (L : FVec Ideal A .f32) (hL : ∀ i, ∃ r : ℝ, L i = (r : EReal)) (j : R2.Idx) :
    ∃ r : ℝ, 0 < r ∧
      Host.reduceAdd (expShift (F := Ideal) h L) (constant Z .f32 0x00000000#32) h.red h.hz j = (r : EReal) := by
  choose e he using expShift_pos h L hL
  have hs : Host.reduceAdd (expShift (F := Ideal) h L) (constant Z .f32 0x00000000#32) h.red h.hz j
      = Ideal.ofBits .f32 0x00000000#32 + ∑ k : Fin (A.size 2), expShift (F := Ideal) h L (reduces.lift j k) :=
    Ideal.hostReduceAdd_single h.red reduces _ _ j
  refine ⟨∑ k : Fin (A.size 2), e (reduces.lift j k),
    Finset.sum_pos (fun k _ => (he _).1) ⟨⟨0, by decide⟩, Finset.mem_univ _⟩, ?_⟩
  rw [hs, Ideal.ofBits_zero_f32, zero_add, coe_sum]
  exact Finset.sum_congr rfl fun k _ => (he _).2

/-- Over the extended reals the softmax of real logits is real. -/
theorem smx_real (h : Rel) (L : FVec Ideal A .f32) (hL : ∀ i, ∃ r : ℝ, L i = (r : EReal)) :
    ∀ i, ∃ r : ℝ, smx (F := Ideal) h L i = (r : EReal) := by
  intro i
  obtain ⟨n, _, hn⟩ := expShift_pos h L hL i
  obtain ⟨k1, e1⟩ := broadcast_reads ![0, 1, 2] h.b2 (broadcastInDim R3 ![0, 1] h.b1
    (Host.reduceAdd (expShift (F := Ideal) h L) (constant Z .f32 0x00000000#32) h.red h.hz)) i
  obtain ⟨k2, e2⟩ := broadcast_reads ![0, 1] h.b1
    (Host.reduceAdd (expShift (F := Ideal) h L) (constant Z .f32 0x00000000#32) h.red h.hz) k1
  obtain ⟨d, hd, hde⟩ := rowSum_pos h L hL k2
  refine ⟨n * (1 / d), ?_⟩
  show Ideal.div (expShift (F := Ideal) h L i)
    (broadcastInDim A ![0, 1, 2] h.b2 (broadcastInDim R3 ![0, 1] h.b1
      (Host.reduceAdd (expShift (F := Ideal) h L) (constant Z .f32 0x00000000#32) h.red h.hz)) i) = _
  rw [e1, e2, hn, hde, Ideal.div_coe (ne_of_gt hd), ← EReal.coe_mul]

end Cert.Smx

end
-- ==== Proof.KBlocks.lean ====
/-
  What the body finds in its two input blocks, as entries of the arrays the region finds: at point `n`
  (batch `n / 32`, tile `n % 32`) the block of `S` is batch `n / 32` of the softmax array, whole, and the
  block of `W` is rows `256 · (n % 32) …` of batch `n / 32` of the affinities; and the softmax array is
  the softmax of the logits, the host lines before the region composed.
-/
import proofs.«144528_j25563645346550_1_alg».proof.Proof.KDefs
import proofs.«144528_j25563645346550_1_alg».proof.Proof.Softmax
import Idealize.ShloMosaic.Lib.ValueIdx
import Idealize.ShloMosaic.Lib.Pipeline.Value
import Idealize.ShloMosaic.Lib.StableHlo.Run

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The shape relations of the softmax, from the program's stated facts. -/
theorem kRel : Cert.Smx.Rel :=
  ⟨Gen.reducesTo_S4x8192x16_S4x8192_d2, Gen.h_S_, Gen.bcast_S_S4x8192, Gen.bcast_S4x8192_S4x8192x1_0_1, Gen.bcast_S4x8192x1_S4x8192x16_0_1_2⟩

/-- The softmax array as the region finds it. -/
abbrev Sarr (c : Dev nD) : Vec F S4x8192x16 .f32 := V m c main_v10
/-- The affinities as the region finds them. -/
abbrev Warr (c : Dev nD) : Vec F S4x8192x8192 .f32 := V m c main_arg1

/-! ## Where the two input blocks lie in their arrays -/

/-- The block of `W` at grid point `t` is block (`t / 32`, `t % 32`, 0): the batch and the row tile. -/
theorem idxW : ∀ t : Fin cfg0.N, win0_0.index t (0 : Fin 3) = t.val / 32
    ∧ win0_0.index t (1 : Fin 3) = t.val % 32 ∧ win0_0.index t (2 : Fin 3) = 0 :=
  (by decide +kernel : ∀ t : Fin grid0.N, _)

/-- The block of `S` at grid point `t` is block (`t / 32`, 0, 0): the batch, whole. -/
theorem idxS : ∀ t : Fin cfg0.N, win0_1.index t (0 : Fin 3) = t.val / 32
    ∧ win0_1.index t (1 : Fin 3) = 0 ∧ win0_1.index t (2 : Fin 3) = 0 :=
  (by decide +kernel : ∀ t : Fin grid0.N, _)

/-- An entry of the block of `S` at a grid point is the same entry of batch `t / 32` of the softmax array: on each
    axis the array coordinate is the block index times the block's extent plus the coordinate in the block, and the
    block indices are `t / 32`, 0, 0 with extents 1, 8192, 16. -/
theorem Sblk_pt (c : Dev nD) (t : Fin cfg0.N) (r : Fin 8192) (k : Fin 16) :
    iblk m c 1 t (ix3 (0 : Fin 1) r k)
      = V m c main_v10 (ix3 (⟨t.val / 32, by have := t.isLt; have : cfg0.N = 128 := N_0; omega⟩ : Fin 4) r k) := by
  obtain ⟨e0, e1, e2⟩ := idxS t
  show V m c main_v10 (((cfg0.win 1).blk t).view.emb (ix3 (0 : Fin 1) r k)) = V m c main_v10 _
  congr 1
  funext a; apply Fin.ext
  match a with
  | ⟨0, _⟩ => show win0_1.index t (0 : Fin 3) * 1 + 1 * 0 = t.val / 32; omega
  | ⟨1, _⟩ => show win0_1.index t (1 : Fin 3) * 8192 + 1 * r.val = r.val; omega
  | ⟨2, _⟩ => show win0_1.index t (2 : Fin 3) * 16 + 1 * k.val = k.val; omega

/-- An entry of the block of `W` at a grid point, row `r` of the block, is row `256 · (t % 32) + r` of batch `t / 32`
    of the affinities: the block indices are `t / 32`, `t % 32`, 0 with extents 1, 256, 8192. -/
theorem Wblk_pt (c : Dev nD) (t : Fin cfg0.N) (r : Fin 256) (m' : Fin 8192) :
    iblk m c 0 t (ix3 (0 : Fin 1) r m')
      = V m c main_arg1 (ix3 (⟨t.val / 32, by have := t.isLt; have : cfg0.N = 128 := N_0; omega⟩ : Fin 4)
          (⟨256 * (t.val % 32) + r.val, by have := r.isLt; omega⟩ : Fin 8192) m') := by
  obtain ⟨e0, e1, e2⟩ := idxW t
  show V m c main_arg1 (((cfg0.win 0).blk t).view.emb (ix3 (0 : Fin 1) r m')) = V m c main_arg1 _
  congr 1
  funext a; apply Fin.ext
  match a with
  | ⟨0, _⟩ => show win0_0.index t (0 : Fin 3) * 1 + 1 * 0 = t.val / 32; omega
  | ⟨1, _⟩ => show win0_0.index t (1 : Fin 3) * 256 + 1 * r.val = 256 * (t.val % 32) + r.val; omega
  | ⟨2, _⟩ => show win0_0.index t (2 : Fin 3) * 8192 + 1 * m'.val = m'.val; omega

/-- The block of `S` at point `n` is batch `n / 32` of the softmax array. -/
theorem Sb_apply (c : Dev nD) (n : ℕ) (hn : n < 128) (r : Fin 8192) (k : Fin 16) :
    Sb m c n (ix3 (0 : Fin 1) r k) = Sarr m c (ix3 (⟨n / 32, by omega⟩ : Fin 4) r k) := by
  -- point number `n < 128` is grid point `n` itself
  have e : (pt n).val = n := Nat.mod_eq_of_lt hn
  refine (Sblk_pt m c (pt n) r k).trans ?_
  show V m c main_v10 _ = V m c main_v10 _
  congr 1
  funext a; apply Fin.ext
  match a with
  | ⟨0, _⟩ => show (pt n).val / 32 = n / 32; rw [e]
  | ⟨1, _⟩ => rfl
  | ⟨2, _⟩ => rfl

/-- The block of `W` at point `n` is rows `256 · (n % 32) + r` of batch `n / 32` of the affinities. -/
theorem Wb_apply (c : Dev nD) (n : ℕ) (hn : n < 128) (r : Fin 256) (m' : Fin 8192) :
    Wb m c n (ix3 (0 : Fin 1) r m')
      = Warr m c (ix3 (⟨n / 32, by omega⟩ : Fin 4) (⟨256 * (n % 32) + r.val, by have := r.isLt; omega⟩ : Fin 8192) m') := by
  have e : (pt n).val = n := Nat.mod_eq_of_lt hn
  refine (Wblk_pt m c (pt n) r m').trans ?_
  show V m c main_arg1 _ = V m c main_arg1 _
  congr 1
  funext a; apply Fin.ext
  match a with
  | ⟨0, _⟩ => show (pt n).val / 32 = n / 32; rw [e]
  | ⟨1, _⟩ => show 256 * ((pt n).val % 32) + r.val = 256 * (n % 32) + r.val; rw [e]
  | ⟨2, _⟩ => rfl

/-- The softmax array is the softmax of the logits: the fourteen host operations before the region, composed, are
    the row maximum floored at `-∞`, the exponential of the logits less it, and the quotient by the rows' sums of
    those exponentials, each broadcast back along the last axis. -/
theorem Sarr_eq (c : Dev nD) : Sarr m c = Cert.Smx.smx kRel (m ((c : Thread nD τ).loc main_arg2)) := by
  show StableHlo.after hostOps0 (fun b => m (c, b)) (Proc.devRef .tc main_v10) = _
  after_results
  unfold Cert.Smx.smx Cert.Smx.expShift Cert.Smx.rowMax
  rfl

/-- The affinities are found as launched. -/
theorem Warr_eq (c : Dev nD) : Warr m c = m ((c : Thread nD τ).loc main_arg1) := V_main_arg1 m c

end Cert.KernelIdeal.Body

end
-- ==== Proof.Spec.lean ====
/-
  The two closed forms the certificate compares, as plain sums over the extended reals.
  For a batch `b`, assignment matrix `S b : 8192 × 16` and affinity matrix `W b : 8192 × 8192`:
  the cut matrix `Sᵀ W S` (16 × 16) bracketed the kernel's way, `Sᵀ (W S)` (`cutK`), and the
  reference's way, `(Sᵀ W) S` (`cutR`); its trace and its total summed over the batches; the
  squared Frobenius distance of `Sᵀ S` from the identity summed over the batches; and the loss
  `-(trace / total) + sqrt(distance) / 4`. The two bracketings agree entry by entry when
  every entry of `S` and `W` is a real number, because then every partial sum is real and the
  real distributive law and the exchange of two finite sums apply (`cutK_eq_cutR`).
-/
import Idealize.ShloMosaic.PureOps.Ideal

noncomputable section

namespace Cert.Spec

open Idealize.ShloMosaic
open scoped BigOperators

/-- The assignment matrices, one per batch: `S b n k`. -/
abbrev SArr := Fin 4 → Fin 8192 → Fin 16 → EReal
/-- The affinity matrices, one per batch: `W b n m`. -/
abbrev WArr := Fin 4 → Fin 8192 → Fin 8192 → EReal

/-- `Sᵀ (W S)`: the inner sum is a row of `W S`. -/
def cutK (S : SArr) (W : WArr) (b : Fin 4) (k j : Fin 16) : EReal :=
  ∑ n : Fin 8192, S b n k * ∑ m' : Fin 8192, W b n m' * S b m' j

/-- `(Sᵀ W) S`: the inner sum is an entry of `Sᵀ W`. -/
def cutR (S : SArr) (W : WArr) (b : Fin 4) (k j : Fin 16) : EReal :=
  ∑ m' : Fin 8192, (∑ n : Fin 8192, S b n k * W b n m') * S b m' j

/-- `Sᵀ S`. -/
def sts (S : SArr) (b : Fin 4) (k j : Fin 16) : EReal :=
  ∑ n : Fin 8192, S b n k * S b n j

/-- The 16 × 16 identity matrix. -/
def eye (k j : Fin 16) : EReal := if k = j then 1 else 0

/-- The trace of each batch's cut matrix, summed over the batches. -/
def trOf (cut : Fin 4 → Fin 16 → Fin 16 → EReal) : EReal := ∑ b : Fin 4, ∑ k : Fin 16, ∑ j : Fin 16, cut b k j * eye k j

/-- The total of each batch's cut matrix, summed over the batches. -/
def csOf (cut : Fin 4 → Fin 16 → Fin 16 → EReal) : EReal := ∑ b : Fin 4, ∑ k : Fin 16, ∑ j : Fin 16, cut b k j

/-- The squared Frobenius distance of `Sᵀ S` from the identity, summed over the batches. -/
def osOf (S : SArr) : EReal :=
  ∑ b : Fin 4, ∑ k : Fin 16, ∑ j : Fin 16, (sts S b k j - eye k j) * (sts S b k j - eye k j)

/-- The loss from the three totals; `0x40800000` is the float 4.0 (the batch count). -/
def lossOf (tr cs os : EReal) : EReal :=
  (0 - Ideal.div tr cs) + Ideal.div (Ideal.sqrt os) (Ideal.ofBits .f32 0x40800000#32)

/-- The loss with the cut matrix bracketed the kernel's way. -/
def lossK (S : SArr) (W : WArr) : EReal := lossOf (trOf (cutK S W)) (csOf (cutK S W)) (osOf S)

/-- The loss with the cut matrix bracketed the reference's way. -/
def lossR (S : SArr) (W : WArr) : EReal := lossOf (trOf (cutR S W)) (csOf (cutR S W)) (osOf S)

end Cert.Spec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KPay.lean ====
/-
  The kernel body's stored values over the extended reals, read entry by entry. The zeroing stores
  hold 0. The tile product `W_tile S` (the narrowing to bf16 is the identity here) is, at row `r` and
  column `j`, the sum over `m'` of `W[r, m'] · S[m', j]`; `Sᵀ Y` at `(k, j)` is the sum over `n` of
  `S[n, k] · Y[n, j]`. The accumulator updates add to the old value the double sum over the 16 × 16
  entries (the row sums, then their sum): of the squared difference of `Sᵀ S` from the identity, of
  `Sᵀ Y` times the identity's entry (the trace), of `Sᵀ Y` (the total). The last store is the loss
  of the three accumulators.
-/
import proofs.«144528_j25563645346550_1_alg».proof.Proof.Gen.KernelIdeal.Skeleton
import proofs.«144528_j25563645346550_1_alg».proof.Proof.Spec
import proofs.«144528_j25563645346550_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx
open scoped BigOperators

/-- `Sᵀ S` of one block of `S`, at an entry. -/
def stsL (x1 : Vec Ideal S1x8192x16 .f32) (k j : Fin 16) : EReal := ∑ n : Fin 8192, x1 (ix3 0 n k) * x1 (ix3 0 n j)

theorem pay1_apply (i : S1x1.Idx) : k0_pay1 (F := Ideal) i = 0 := by
  unfold k0_pay1
  rw [shapeCast_self]
  exact Ideal.ofBits_zero_f32
theorem pay2_apply (i : S1x1.Idx) : k0_pay2 (F := Ideal) i = 0 := by
  unfold k0_pay2
  rw [shapeCast_self]
  exact Ideal.ofBits_zero_f32
theorem pay3_apply (i : S1x1.Idx) : k0_pay3 (F := Ideal) i = 0 := by
  unfold k0_pay3
  rw [shapeCast_self]
  exact Ideal.ofBits_zero_f32

theorem pay5_apply (x0 : Vec Ideal S1x256x8192 .f32) (x1 : Vec Ideal S1x8192x16 .f32) (r : Fin 256) (j : Fin 16) :
    k0_pay5 (F := Ideal) x0 x1 (ix2 r j) = ∑ m' : Fin 8192, x0 (ix3 0 r m') * x1 (ix3 0 m' j) := by
  unfold k0_pay5
  rw [shapeCast_self,
    PlainMatmul.matmul_zero_apply dot_S256x8192_S8192x16_S256x16_1_0_0_1_n_n
      Facts₀.dot_S256x8192_S8192x16_S256x16_1_0_0_1_n_n_wf rfl]
  refine Finset.sum_congr rfl fun c _ => ?_
  rw [truncf_apply, truncf_apply, shapeCast_1ab_ab_apply, shapeCast_1ab_ab_apply]

theorem pay6_apply (x1 : Vec Ideal S1x8192x16 .f32) (y : Vec Ideal S8192x16 .f32) (k j : Fin 16) :
    k0_pay6 (F := Ideal) x1 y (ix2 k j) = ∑ n : Fin 8192, x1 (ix3 0 n k) * y (ix2 n j) := by
  unfold k0_pay6
  dsimp only
  rw [PlainMatmul.matmul_zero_apply dot_S16x8192_S8192x16_S16x16_1_0_0_1_n_n
      Facts₀.dot_S16x8192_S8192x16_S16x16_1_0_0_1_n_n_wf rfl]
  refine Finset.sum_congr rfl fun c _ => ?_
  rw [transpose_ix2_apply, shapeCast_1ab_ab_apply]

theorem pay9_apply (a b d : Vec Ideal S1x1 .f32) (i : S1x1.Idx) :
    k0_pay9 (F := Ideal) a b d i = Cert.Spec.lossOf (a i) (b i) (d i) := by
  unfold k0_pay9 Cert.Spec.lossOf
  show (Ideal.ofBits .f32 0x00000000#32 - Ideal.div (a i) (b i))
      + Ideal.div (Ideal.sqrt (d i)) (Ideal.ofBits .f32 0x40800000#32) = _
  rw [Ideal.ofBits_zero_f32]

end Cert.KernelIdeal.KVal

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KPayAcc.lean ====
/-
  The three accumulator updates of the kernel body over the extended reals: each adds to the old value
  the double sum over the 16 × 16 entries (row sums, then their sum) of, respectively, the squared
  difference of `Sᵀ S` from the identity; `Sᵀ Y` times the identity's entry; `Sᵀ Y`.
-/
import proofs.«144528_j25563645346550_1_alg».proof.Proof.KPay
import proofs.«144528_j25563645346550_1_alg».proof.Proof.LibColumn

noncomputable section

namespace Cert.KernelIdeal.KVal

open Cert.KernelIdeal Cert.KernelIdeal.Gen Idealize.ShloMosaic Idealize.ShloMosaic.TcCoe Idealize.ShloMosaic.ValueIdx
open scoped BigOperators

/-- Reducing the first axis of an [a, b] array: over column `c`, coordinate `k` is inserted as `(k, c)`. -/
theorem lift_first_ix2 {a b : ℕ} (h : (⟨2, ![a, b]⟩ : Shape).Reduces [(0 : Fin 2)] ⟨1, ![b]⟩) (c : Fin b) (k : Fin a) :
    h.lift (ix1 c) k = ix2 k c := by
  funext d
  apply Fin.ext
  refine (h.lift_val (ix1 c) k d).trans ?_
  match d with
  | ⟨0, _⟩ => rfl
  | ⟨1, _⟩ => rfl

/-- The one index of a 1 × 1 array. -/
theorem idx_S1x1 (i : S1x1.Idx) : i = ix2 (0 : Fin 1) (0 : Fin 1) := by
  funext c
  match c with
  | ⟨0, _⟩ => exact Subsingleton.elim (α := Fin 1) _ _
  | ⟨1, _⟩ => exact Subsingleton.elim (α := Fin 1) _ _

/-- The row sums of a 16 × 16 array, kept as a column, then summed: the double sum over its entries. -/
theorem total_apply (v : FVec Ideal S16x16 .f32) :
    shapeCast S1x1 (multiReduction (F := Ideal) .add [0] S1
        (shapeCast S16x1 (multiReduction (F := Ideal) .add [1] S16 v 0x00000000#32 reduces_S16x16_S16 (.inl rfl) rfl) shapeCasts_S16_S16x1)
        0x00000000#32 reduces_S16x1_S1 (.inl rfl) rfl) shapeCasts_S1_S1x1 (ix2 (0 : Fin 1) (0 : Fin 1))
      = ∑ k : Fin 16, ∑ j : Fin 16, v (ix2 k j) := by
  rw [Cert.LibColumn.shapeCast_a_a1_apply]
  refine (Ideal.multiReduction_add_single _ _ reduces_S16x1_S1 _ _ _).trans ?_
  refine Finset.sum_congr rfl fun (k : Fin 16) _ => ?_
  rw [lift_first_ix2 reduces_S16x1_S1 (0 : Fin 1) k, Cert.LibColumn.shapeCast_a_a1_apply]
  refine (Ideal.multiReduction_add_single _ _ reduces_S16x16_S16 _ _ _).trans ?_
  refine Finset.sum_congr rfl fun (j : Fin 16) _ => ?_
  rw [Cert.LibColumn.lift_last_ix2 reduces_S16x16_S16 k j]

/-- The identity matrix the kernel builds (the row number compared with the column number, the bit widened and converted)
    is, at `(k, j)`, 1 when `k = j` and 0 otherwise: both numbers are below 16, so their 32-bit words are equal exactly
    when they are. -/
theorem eye_apply (k j : Fin 16) :
    (sitofp .f32 (extui 32 (cmpi .eq (iota .tc S16x16 32 [0] iota_S16x16_d0_w32) (iota .tc S16x16 32 [1] iota_S16x16_d1_w32)) natLt_1_32)
        : FVec Ideal S16x16 .f32) (ix2 k j) = Cert.Spec.eye k j := by
  rw [sitofp_apply, extui_apply]
  show FloatOps.sitofp (F := Ideal) .f32 ((IntOp.cmpi .eq (iota .tc S16x16 32 [0] iota_S16x16_d0_w32 (ix2 k j))
    (iota .tc S16x16 32 [1] iota_S16x16_d1_w32 (ix2 k j))).setWidth 32) = _
  rw [iota_single_apply, iota_single_apply]
  show FloatOps.sitofp (F := Ideal) .f32 ((BitVec.ofBool (BitVec.ofNat 32 k.val == BitVec.ofNat 32 j.val)).setWidth 32) = _
  unfold Cert.Spec.eye
  by_cases h : k = j
  · subst h
    rw [if_pos rfl, beq_self_eq_true]
    show ((((BitVec.ofBool true).setWidth 32).toInt : ℝ) : EReal) = 1
    rw [show ((BitVec.ofBool true).setWidth 32).toInt = 1 from by decide]
    norm_cast
  · have hne : BitVec.ofNat 32 k.val ≠ BitVec.ofNat 32 j.val := fun e => h (Fin.ext (by
      have e' := congrArg BitVec.toNat e
      rw [BitVec.toNat_ofNat, BitVec.toNat_ofNat] at e'
      have := k.isLt; have := j.isLt; omega))
    rw [if_neg h, beq_eq_false_iff_ne.mpr hne]
    show ((((BitVec.ofBool false).setWidth 32).toInt : ℝ) : EReal) = 0
    rw [show ((BitVec.ofBool false).setWidth 32).toInt = 0 from by decide]
    norm_cast

/-- `Sᵀ S` as the kernel computes it (the product `Sᵀ Y` with `Y` the block of `S` itself, viewed 8192 × 16), at an entry. -/
theorem sts_apply (x1 : Vec Ideal S1x8192x16 .f32) (k j : Fin 16) :
    k0_pay6 (F := Ideal) x1 (shapeCast S8192x16 x1 shapeCasts_S1x8192x16_S8192x16) (ix2 k j) = stsL x1 k j := by
  rw [pay6_apply]
  unfold stsL
  refine Finset.sum_congr rfl fun n _ => ?_
  rw [shapeCast_1ab_ab_apply]

theorem pay4_apply (x1 : Vec Ideal S1x8192x16 .f32) (a : Vec Ideal S1x1 .f32) (i : S1x1.Idx) :
    k0_pay4 (F := Ideal) x1 a i
      = a i + ∑ k : Fin 16, ∑ j : Fin 16, (stsL x1 k j - Cert.Spec.eye k j) * (stsL x1 k j - Cert.Spec.eye k j) := by
  obtain rfl := idx_S1x1 i
  unfold k0_pay4
  rw [shapeCast_self, addf_apply, total_apply]
  refine congrArg (a (ix2 (0 : Fin 1) (0 : Fin 1)) + ·) ?_
  refine Finset.sum_congr rfl fun k _ => Finset.sum_congr rfl fun j _ => ?_
  rw [mulf_apply, subf_apply, eye_apply]
  exact congrArg (fun t => (t - Cert.Spec.eye k j) * (t - Cert.Spec.eye k j)) (sts_apply x1 k j)

theorem pay7_apply (x1 : Vec Ideal S1x8192x16 .f32) (y : Vec Ideal S8192x16 .f32) (a : Vec Ideal S1x1 .f32) (i : S1x1.Idx) :
    k0_pay7 (F := Ideal) x1 y a i
      = a i + ∑ k : Fin 16, ∑ j : Fin 16, k0_pay6 (F := Ideal) x1 y (ix2 k j) * Cert.Spec.eye k j := by
  obtain rfl := idx_S1x1 i
  unfold k0_pay7
  rw [shapeCast_self, addf_apply, total_apply]
  refine congrArg (a (ix2 (0 : Fin 1) (0 : Fin 1)) + ·) ?_
  refine Finset.sum_congr rfl fun k _ => Finset.sum_congr rfl fun j _ => ?_
  rw [mulf_apply, eye_apply]

theorem pay8_apply (x1 : Vec Ideal S1x8192x16 .f32) (y : Vec Ideal S8192x16 .f32) (a : Vec Ideal S1x1 .f32) (i : S1x1.Idx) :
    k0_pay8 (F := Ideal) x1 y a i
      = a i + ∑ k : Fin 16, ∑ j : Fin 16, k0_pay6 (F := Ideal) x1 y (ix2 k j) := by
  obtain rfl := idx_S1x1 i
  unfold k0_pay8
  rw [shapeCast_self, addf_apply, total_apply]

end Cert.KernelIdeal.KVal

end
-- ==== Proof.KValue.lean ====
/-
  The loss the kernel writes, over the extended reals, in closed form. With `S` the softmax array and
  `W` the affinities as the region finds them: batch `k`'s scratch `Y` is `W_k S_k` row by row (each
  tile's product read at its rows); so the trace and total accumulators grow, batch by batch, by the
  trace and the total of `S_kᵀ (W_k S_k)`, and the distance accumulator by the squared distance of
  `S_kᵀ S_k` from the identity; after the four batches they are the sums over the batches, and the last
  store is the loss of those sums: the specification's loss with the cut matrix bracketed `Sᵀ (W S)`.
-/
import proofs.«144528_j25563645346550_1_alg».proof.Proof.KBlocks
import proofs.«144528_j25563645346550_1_alg».proof.Proof.KPayAcc

noncomputable section

namespace Cert.KernelIdeal.KVal

open Cert.KernelIdeal Cert.KernelIdeal.Gen Cert.KernelIdeal.Body
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-- The softmax array as the specification's `S b n k`. -/
def SS : Cert.Spec.SArr := fun b n k => Sarr m c (ix3 b n k)
/-- The affinities as the specification's `W b n m'`. -/
def WW : Cert.Spec.WArr := fun b n m' => Warr m c (ix3 b n m')

/-- The tile product at any index of its block. -/
theorem pay5_at (x0 : Vec Ideal S1x256x8192 .f32) (x1 : Vec Ideal S1x8192x16 .f32) (q : S256x16.Idx) :
    k0_pay5 (F := Ideal) x0 x1 q = ∑ m' : Fin 8192, x0 (ix3 0 (q 0) m') * x1 (ix3 0 m' (q 1)) :=
  (congrArg (k0_pay5 (F := Ideal) x0 x1) (eq_ix2 q)).trans (pay5_apply x0 x1 (q 0) (q 1))

/-- Batch `k`'s `Y` is `W_k S_k`. -/
theorem Yb_apply (k : ℕ) (hk : k < 4) (n : Fin 8192) (j : Fin 16) :
    Yb m c k (ix2 n j) = ∑ m' : Fin 8192, WW m c ⟨k, hk⟩ n m' * SS m c ⟨k, hk⟩ m' j := by
  have hn := n.isLt
  have hp : 32 * k + n.val / 256 < 128 := by omega
  unfold Yb
  refine (pay5_at _ _ _).trans ?_
  refine Finset.sum_congr rfl fun m' _ => ?_
  show Wb m c (32 * k + n.val / 256) (ix3 (0 : Fin 1) (⟨n.val % 256, Nat.mod_lt _ (by decide)⟩ : Fin 256) m')
      * Sb m c (32 * k + n.val / 256) (ix3 (0 : Fin 1) m' j) = _
  rw [Wb_apply m c _ hp, Sb_apply m c _ hp]
  have eb : (⟨(32 * k + n.val / 256) / 32, by omega⟩ : Fin 4) = ⟨k, hk⟩ := Fin.ext (by show (32 * k + n.val / 256) / 32 = k; omega)
  have er : (⟨256 * ((32 * k + n.val / 256) % 32) + n.val % 256, by omega⟩ : Fin 8192) = n :=
    Fin.ext (by show 256 * ((32 * k + n.val / 256) % 32) + n.val % 256 = n.val; omega)
  unfold WW SS
  rw [eb, er]

/-- `S_kᵀ Y_k` at an entry is the cut matrix bracketed `Sᵀ (W S)`. -/
theorem pay6_cut (k : ℕ) (hk : k < 4) (k' j : Fin 16) :
    k0_pay6 (F := Ideal) (Sb m c (32 * k + 31)) (Yb m c k) (ix2 k' j) = Cert.Spec.cutK (SS m c) (WW m c) ⟨k, hk⟩ k' j := by
  rw [pay6_apply]
  unfold Cert.Spec.cutK
  refine Finset.sum_congr rfl fun n _ => ?_
  rw [Sb_apply m c _ (by omega : 32 * k + 31 < 128), Yb_apply m c k hk]
  have eb : (⟨(32 * k + 31) / 32, by omega⟩ : Fin 4) = ⟨k, hk⟩ := Fin.ext (by show (32 * k + 31) / 32 = k; omega)
  rw [eb]
  rfl

/-- `S_kᵀ S_k` of the block at the batch's first tile is the specification's. -/
theorem stsL_eq (k : ℕ) (hk : k < 4) (k' j : Fin 16) :
    stsL (Sb m c (32 * k)) k' j = Cert.Spec.sts (SS m c) ⟨k, hk⟩ k' j := by
  unfold stsL Cert.Spec.sts
  refine Finset.sum_congr rfl fun n _ => ?_
  rw [Sb_apply m c _ (by omega : 32 * k < 128), Sb_apply m c _ (by omega : 32 * k < 128)]
  have eb : (⟨(32 * k) / 32, by omega⟩ : Fin 4) = ⟨k, hk⟩ := Fin.ext (by show (32 * k) / 32 = k; omega)
  rw [eb]
  rfl

/-- Batch `k` adds its trace to the first accumulator. -/
theorem trAt_succ (k : ℕ) (hk : k < 4) (i : S1x1.Idx) :
    trAt m c (k + 1) i = trAt m c k i
      + ∑ k' : Fin 16, ∑ j : Fin 16, Cert.Spec.cutK (SS m c) (WW m c) ⟨k, hk⟩ k' j * Cert.Spec.eye k' j := by
  show k0_pay7 (F := Ideal) (Sb m c (32 * k + 31)) (Yb m c k) (trAt m c k) i = _
  rw [pay7_apply]
  simp only [pay6_cut m c k hk]

/-- Batch `k` adds its total to the second accumulator. -/
theorem csAt_succ (k : ℕ) (hk : k < 4) (i : S1x1.Idx) :
    csAt m c (k + 1) i = csAt m c k i
      + ∑ k' : Fin 16, ∑ j : Fin 16, Cert.Spec.cutK (SS m c) (WW m c) ⟨k, hk⟩ k' j := by
  show k0_pay8 (F := Ideal) (Sb m c (32 * k + 31)) (Yb m c k) (csAt m c k) i = _
  rw [pay8_apply]
  simp only [pay6_cut m c k hk]

/-- Batch `k` adds its squared distance to the third accumulator. -/
theorem osAt_succ (k : ℕ) (hk : k < 4) (i : S1x1.Idx) :
    osAt m c (k + 1) i = osAt m c k i
      + ∑ k' : Fin 16, ∑ j : Fin 16, (Cert.Spec.sts (SS m c) ⟨k, hk⟩ k' j - Cert.Spec.eye k' j)
          * (Cert.Spec.sts (SS m c) ⟨k, hk⟩ k' j - Cert.Spec.eye k' j) := by
  show k0_pay4 (F := Ideal) (Sb m c (32 * k)) (osAt m c k) i = _
  rw [pay4_apply]
  simp only [stsL_eq m c k hk]

/-- After the four batches the first accumulator is the total trace. -/
theorem trAt_four (i : S1x1.Idx) : trAt m c 4 i = Cert.Spec.trOf (Cert.Spec.cutK (SS m c) (WW m c)) := by
  rw [trAt_succ m c 3 (by decide), trAt_succ m c 2 (by decide), trAt_succ m c 1 (by decide), trAt_succ m c 0 (by decide)]
  show k0_pay1 (F := Ideal) i + _ + _ + _ + _ = _
  rw [pay1_apply, zero_add]
  unfold Cert.Spec.trOf
  rw [Fin.sum_univ_four]
  rfl

/-- After the four batches the second accumulator is the total of the cut matrices. -/
theorem csAt_four (i : S1x1.Idx) : csAt m c 4 i = Cert.Spec.csOf (Cert.Spec.cutK (SS m c) (WW m c)) := by
  rw [csAt_succ m c 3 (by decide), csAt_succ m c 2 (by decide), csAt_succ m c 1 (by decide), csAt_succ m c 0 (by decide)]
  show k0_pay2 (F := Ideal) i + _ + _ + _ + _ = _
  rw [pay2_apply, zero_add]
  unfold Cert.Spec.csOf
  rw [Fin.sum_univ_four]
  rfl

/-- After the four batches the third accumulator is the total squared distance. -/
theorem osAt_four (i : S1x1.Idx) : osAt m c 4 i = Cert.Spec.osOf (SS m c) := by
  rw [osAt_succ m c 3 (by decide), osAt_succ m c 2 (by decide), osAt_succ m c 1 (by decide), osAt_succ m c 0 (by decide)]
  show k0_pay3 (F := Ideal) i + _ + _ + _ + _ = _
  rw [pay3_apply, zero_add]
  unfold Cert.Spec.osOf
  rw [Fin.sum_univ_four]
  rfl

/-- The loss the last point writes is the specification's, bracketed the kernel's way. -/
theorem outFinal_eq (i : S1x1.Idx) : outFinal m c i = Cert.Spec.lossK (SS m c) (WW m c) := by
  unfold outFinal
  rw [pay9_apply, trAt_four, csAt_four, osAt_four]
  rfl

end Cert.KernelIdeal.KVal

end
-- ==== Proof.RefRun.lean ====
/-
  The reference program's run. Its @main is a straight line of host operations (the two outlined
  helpers, the trace and its masked select, are run in line at their call sites): a softmax of the
  logits, then `M = Sᵀ W`, `cut = M S`, the trace of `cut` as a masked sum, its total, their quotient;
  `Sᵀ S` less the identity, squared, summed, square-rooted, divided by four; and the sum of the negated
  quotient and that. Every weakly fair execution ends with the first result at the softmax of the logits
  and the second at `lossTerm` of that softmax and the affinities, the arguments unchanged.
-/
import proofs.«144528_j25563645346550_1_alg».proof.Proof.Gen.ReferenceIdeal
import proofs.«144528_j25563645346550_1_alg».proof.Proof.Softmax
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The shape relations of the softmax, from the program's stated facts. -/
theorem smxRel : Cert.Smx.Rel :=
  ⟨reducesTo_S4x8192x16_S4x8192_d2, h_S_, bcast_S_S4x8192, bcast_S4x8192_S4x8192x1_0_1, bcast_S4x8192x1_S4x8192x16_0_1_2⟩

/-- The 16 × 16 diagonal as a mask: row index (plus zero) equals column index. -/
def eyeMask : IVec S16x16 1 :=
  cmpi .eq (addi (iotaInDim S16x16 32 0) (broadcastInDim S16x16 ![] bcast_S_S16x16 (constantI S_ 32 0#32))) (iotaInDim S16x16 32 1)

/-- The second result as a function of the softmax `S` and the affinities `W`: the operations after the
    softmax, composed. -/
def lossTerm (S : FVec F S4x8192x16 .f32) (W : FVec F S4x8192x8192 .f32) : FVec F S_ .f32 :=
  let v11 : FVec F S4x16x8192 .f32 := Host.dotGeneral dot_S4x8192x16_S4x8192x8192_S4x16x8192_1_1_2_2_0_0 none S W
  let v12 : FVec F S4x16x16 .f32 := Host.dotGeneral dot_S4x16x8192_S4x8192x16_S4x16x16_2_1_1_2_0_0 none v11 S
  let sel : FVec F S4x16x16 .f32 := select (broadcastInDim S4x16x16 ![1, 2] bcast_S16x16_S4x16x16_1_2 eyeMask) v12
    (broadcastInDim S4x16x16 ![] bcast_S_S4x16x16 (constant S_ .f32 0x00000000#32))
  let v13 : FVec F S4 .f32 := Host.reduceAdd sel (constant S_ .f32 0x00000000#32) reducesTo_S4x16x16_S4_d1_2 h_S_
  let v14 : FVec F S_ .f32 := Host.reduceAdd v13 (constant S_ .f32 0x00000000#32) reducesTo_S4_S_d0 h_S_
  let v15 : FVec F S_ .f32 := Host.reduceAdd v12 (constant S_ .f32 0x00000000#32) reducesTo_S4x16x16_S_d0_1_2 h_S_
  let v16 : FVec F S_ .f32 := Host.divf v14 v15
  let v17 : FVec F S4x16x16 .f32 := Host.dotGeneral dot_S4x8192x16_S4x8192x16_S4x16x16_1_1_2_2_0_0 none S S
  let v25 : FVec F S4x16x16 .f32 := broadcastInDim S4x16x16 ![0, 1, 2] bcast_S1x16x16_S4x16x16_0_1_2
    (broadcastInDim S1x16x16 ![1, 2] bcast_S16x16_S1x16x16_1_2 (uitofp .f32 eyeMask))
  let v26 : FVec F S4x16x16 .f32 := subf v17 v25
  let v27 : FVec F S4x16x16 .f32 := mulf v26 v26
  let v28 : FVec F S_ .f32 := Host.reduceAdd v27 (constant S_ .f32 0x00000000#32) reducesTo_S4x16x16_S_d0_1_2 h_S_
  let v30 : FVec F S_ .f32 := Host.divf (Host.sqrt v28) (constant S_ .f32 0x40800000#32)
  addf (Host.negf v16) v30

/-- @main's fifty-two operations in order, the trace and its masked select listed where they are called. -/
abbrev ops : List (HloOp τ sig (Elt F)) :=
  [ nullary main_cst (constant S_ .f32 0xFF800000#32),
    binary main_arg2 main_cst main_v0 ((fun x v => Host.reduce FloatOps.maximumf x v reducesTo_S4x8192x16_S4x8192_d2 h_S_) : (⟨S4x8192x16, .f32⟩ : BufTy).Contents (Elt F) → (⟨S_, .f32⟩ : BufTy).Contents (Elt F) → (⟨S4x8192, .f32⟩ : BufTy).Contents (Elt F)),
    nullary main_cst_0 (constant S_ .f32 0xFF800000#32),
    unary main_cst_0 main_v1 (broadcastInDim S4x8192 ![] bcast_S_S4x8192 : (⟨S_, .f32⟩ : BufTy).Contents (Elt F) → (⟨S4x8192, .f32⟩ : BufTy).Contents (Elt F)),
    binary main_v1 main_v0 main_v2 (maximumf : (⟨S4x8192, .f32⟩ : BufTy).Contents (Elt F) → (⟨S4x8192, .f32⟩ : BufTy).Contents (Elt F) → (⟨S4x8192, .f32⟩ : BufTy).Contents (Elt F)),
    unary main_v2 main_v3 (broadcastInDim S4x8192x1 ![0, 1] bcast_S4x8192_S4x8192x1_0_1 : (⟨S4x8192, .f32⟩ : BufTy).Contents (Elt F) → (⟨S4x8192x1, .f32⟩ : BufTy).Contents (Elt F)),
    unary main_v3 main_v4 (broadcastInDim S4x8192x16 ![0, 1, 2] bcast_S4x8192x1_S4x8192x16_0_1_2 : (⟨S4x8192x1, .f32⟩ : BufTy).Contents (Elt F) → (⟨S4x8192x16, .f32⟩ : BufTy).Contents (Elt F)),
    binary main_arg2 main_v4 main_v5 (subf : (⟨S4x8192x16, .f32⟩ : BufTy).Contents (Elt F) → (⟨S4x8192x16, .f32⟩ : BufTy).Contents (Elt F) → (⟨S4x8192x16, .f32⟩ : BufTy).Contents (Elt F)),
    unary main_v5 main_v6 (Host.exp : (⟨S4x8192x16, .f32⟩ : BufTy).Contents (Elt F) → (⟨S4x8192x16, .f32⟩ : BufTy).Contents (Elt F)),
    nullary main_cst_1 (constant S_ .f32 0x00000000#32),
    binary main_v6 main_cst_1 main_v7 ((fun x v => Host.reduceAdd x v reducesTo_S4x8192x16_S4x8192_d2 h_S_) : (⟨S4x8192x16, .f32⟩ : BufTy).Contents (Elt F) → (⟨S_, .f32⟩ : BufTy).Contents (Elt F) → (⟨S4x8192, .f32⟩ : BufTy).Contents (Elt F)),
    unary main_v7 main_v8 (broadcastInDim S4x8192x1 ![0, 1] bcast_S4x8192_S4x8192x1_0_1 : (⟨S4x8192, .f32⟩ : BufTy).Contents (Elt F) → (⟨S4x8192x1, .f32⟩ : BufTy).Contents (Elt F)),
    unary main_v8 main_v9 (broadcastInDim S4x8192x16 ![0, 1, 2] bcast_S4x8192x1_S4x8192x16_0_1_2 : (⟨S4x8192x1, .f32⟩ : BufTy).Contents (Elt F) → (⟨S4x8192x16, .f32⟩ : BufTy).Contents (Elt F)),
    binary main_v6 main_v9 main_v10 (Host.divf : (⟨S4x8192x16, .f32⟩ : BufTy).Contents (Elt F) → (⟨S4x8192x16, .f32⟩ : BufTy).Contents (Elt F) → (⟨S4x8192x16, .f32⟩ : BufTy).Contents (Elt F)),
    binary main_v10 main_arg1 main_v11 ((fun l r => Host.dotGeneral dot_S4x8192x16_S4x8192x8192_S4x16x8192_1_1_2_2_0_0 none l r) : (⟨S4x8192x16, .f32⟩ : BufTy).Contents (Elt F) → (⟨S4x8192x8192, .f32⟩ : BufTy).Contents (Elt F) → (⟨S4x16x8192, .f32⟩ : BufTy).Contents (Elt F)),
    binary main_v11 main_v10 main_v12 ((fun l r => Host.dotGeneral dot_S4x16x8192_S4x8192x16_S4x16x16_2_1_1_2_0_0 none l r) : (⟨S4x16x8192, .f32⟩ : BufTy).Contents (Elt F) → (⟨S4x8192x16, .f32⟩ : BufTy).Contents (Elt F) → (⟨S4x16x16, .f32⟩ : BufTy).Contents (Elt F)),
    TRef.nullary main_call0.v0 (iotaInDim S16x16 32 0),
    TRef.nullary main_call0.v1 (iotaInDim S16x16 32 1),
    TRef.nullary main_call0.c (constantI S_ 32 0#32),
    TRef.unary main_call0.c main_call0.v2 (broadcastInDim S16x16 ![] bcast_S_S16x16),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x16x16 ![] bcast_S_S4x16x16),
    TRef.unary main_call0.v4 main_call0.call0.v0 (broadcastInDim S4x16x16 ![1, 2] bcast_S16x16_S4x16x16_1_2),
    TRef.ternary main_call0.call0.v0 (.of main_v12) main_call0.v5 main_call0.call0.v1 select,
    TRef.nullary main_call0.cst_0 (constant S_ .f32 0x00000000#32),
    TRef.binary main_call0.call0.v1 main_call0.cst_0 main_call0.v7 (fun x v => Host.reduceAdd x v reducesTo_S4x16x16_S4_d1_2 h_S_),
    nullary main_cst_2 (constant S_ .f32 0x00000000#32),
    binary main_v13 main_cst_2 main_v14 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_3 (constant S_ .f32 0x00000000#32),
    binary main_v12 main_cst_3 main_v15 ((fun x v => Host.reduceAdd x v reducesTo_S4x16x16_S_d0_1_2 h_S_) : (⟨S4x16x16, .f32⟩ : BufTy).Contents (Elt F) → (⟨S_, .f32⟩ : BufTy).Contents (Elt F) → (⟨S_, .f32⟩ : BufTy).Contents (Elt F)),
    binary main_v14 main_v15 main_v16 (Host.divf : (⟨S_, .f32⟩ : BufTy).Contents (Elt F) → (⟨S_, .f32⟩ : BufTy).Contents (Elt F) → (⟨S_, .f32⟩ : BufTy).Contents (Elt F)),
    binary main_v10 main_v10 main_v17 ((fun l r => Host.dotGeneral dot_S4x8192x16_S4x8192x16_S4x16x16_1_1_2_2_0_0 none l r) : (⟨S4x8192x16, .f32⟩ : BufTy).Contents (Elt F) → (⟨S4x8192x16, .f32⟩ : BufTy).Contents (Elt F) → (⟨S4x16x16, .f32⟩ : BufTy).Contents (Elt F)),
    nullary main_v18 (iotaInDim S16x16 32 0),
    nullary main_v19 (iotaInDim S16x16 32 1),
    nullary main_c (constantI S_ 32 0#32),
    unary main_c main_v20 (broadcastInDim S16x16 ![] bcast_S_S16x16 : (⟨S_, .i32⟩ : BufTy).Contents (Elt F) → (⟨S16x16, .i32⟩ : BufTy).Contents (Elt F)),
    binary main_v18 main_v20 main_v21 (addi : (⟨S16x16, .i32⟩ : BufTy).Contents (Elt F) → (⟨S16x16, .i32⟩ : BufTy).Contents (Elt F) → (⟨S16x16, .i32⟩ : BufTy).Contents (Elt F)),
    binary main_v21 main_v19 main_v22 (cmpi .eq : (⟨S16x16, .i32⟩ : BufTy).Contents (Elt F) → (⟨S16x16, .i32⟩ : BufTy).Contents (Elt F) → (⟨S16x16, .i1⟩ : BufTy).Contents (Elt F)),
    unary main_v22 main_v23 (uitofp .f32 : (⟨S16x16, .i1⟩ : BufTy).Contents (Elt F) → (⟨S16x16, .f32⟩ : BufTy).Contents (Elt F)),
    unary main_v23 main_v24 (broadcastInDim S1x16x16 ![1, 2] bcast_S16x16_S1x16x16_1_2 : (⟨S16x16, .f32⟩ : BufTy).Contents (Elt F) → (⟨S1x16x16, .f32⟩ : BufTy).Contents (Elt F)),
    unary main_v24 main_v25 (broadcastInDim S4x16x16 ![0, 1, 2] bcast_S1x16x16_S4x16x16_0_1_2 : (⟨S1x16x16, .f32⟩ : BufTy).Contents (Elt F) → (⟨S4x16x16, .f32⟩ : BufTy).Contents (Elt F)),
    binary main_v17 main_v25 main_v26 (subf : (⟨S4x16x16, .f32⟩ : BufTy).Contents (Elt F) → (⟨S4x16x16, .f32⟩ : BufTy).Contents (Elt F) → (⟨S4x16x16, .f32⟩ : BufTy).Contents (Elt F)),
    binary main_v26 main_v26 main_v27 (mulf : (⟨S4x16x16, .f32⟩ : BufTy).Contents (Elt F) → (⟨S4x16x16, .f32⟩ : BufTy).Contents (Elt F) → (⟨S4x16x16, .f32⟩ : BufTy).Contents (Elt F)),
    nullary main_cst_4 (constant S_ .f32 0x00000000#32),
    binary main_v27 main_cst_4 main_v28 ((fun x v => Host.reduceAdd x v reducesTo_S4x16x16_S_d0_1_2 h_S_) : (⟨S4x16x16, .f32⟩ : BufTy).Contents (Elt F) → (⟨S_, .f32⟩ : BufTy).Contents (Elt F) → (⟨S_, .f32⟩ : BufTy).Contents (Elt F)),
    unary main_v28 main_v29 (Host.sqrt : (⟨S_, .f32⟩ : BufTy).Contents (Elt F) → (⟨S_, .f32⟩ : BufTy).Contents (Elt F)),
    nullary main_cst_5 (constant S_ .f32 0x40800000#32),
    binary main_v29 main_cst_5 main_v30 (Host.divf : (⟨S_, .f32⟩ : BufTy).Contents (Elt F) → (⟨S_, .f32⟩ : BufTy).Contents (Elt F) → (⟨S_, .f32⟩ : BufTy).Contents (Elt F)),
    unary main_v16 main_v31 (Host.negf : (⟨S_, .f32⟩ : BufTy).Contents (Elt F) → (⟨S_, .f32⟩ : BufTy).Contents (Elt F)),
    binary main_v31 main_v30 main_v32 (addf : (⟨S_, .f32⟩ : BufTy).Contents (Elt F) → (⟨S_, .f32⟩ : BufTy).Contents (Elt F) → (⟨S_, .f32⟩ : BufTy).Contents (Elt F)) ]

set_option maxRecDepth 2048 in
/-- @main is that straight line: the two helpers unfolded at their calls, both sides are one chain of host steps
    once sequencing is reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., nullary_bufs_sub .., nullary_bufs_sub .., unary_bufs_sub .., binary_bufs_sub .., binary_bufs_sub .., unary_bufs_sub .., unary_bufs_sub .., unary_bufs_sub .., binary_bufs_sub .., binary_bufs_sub .., nullary_bufs_sub .., binary_bufs_sub .., unary_bufs_sub .., nullary_bufs_sub .., binary_bufs_sub .., unary_bufs_sub .., binary_bufs_sub ..⟩

attribute [local irreducible] Host.reduce Host.reduceAdd in
set_option maxRecDepth 8192 in
/-- The fold at the first result is the softmax of the third argument: operations one to fourteen are the
    softmax's own, and no later operation writes their buffers. -/
theorem v10_eq (V : Valuation τ sig (Elt F)) :
    after ops V (main_v10 : DevRef τ sig) = Cert.Smx.smx smxRel (V (main_arg2 : DevRef τ sig)) := by
  after_results_simp
  rfl

attribute [local irreducible] Host.reduce Host.reduceAdd in
set_option maxRecDepth 8192 in
/-- The fold at the second result is `lossTerm` of that softmax and the second argument: each later operation
    reads the buffers the term's subterms name. -/
theorem v32_eq (V : Valuation τ sig (Elt F)) :
    after ops V (main_v32 : DevRef τ sig)
      = lossTerm (Cert.Smx.smx smxRel (V (main_arg2 : DevRef τ sig))) (V (main_arg1 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, from any memory with zero counters: every weakly fair execution of @main terminates with
    the first result at the softmax of the logits, the second at `lossTerm` of it and the affinities, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = Cert.Smx.smx smxRel (m ((c.tc : Thread nD τ).loc main_arg2))
      ∧ r.2.mem ((c.tc : Thread nD τ).loc main_v32)
          = lossTerm (Cert.Smx.smx smxRel (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (v10_eq _), (h c main_v32).trans (v32_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's second result over the extended reals, read entry by entry: each `dot_general` is the
  sum over its contracted axis, the masked select is the product with the identity matrix's entry, each
  host sum is the sum over the reduced coordinates (in any order: addition of extended reals is
  commutative and associative), and the zero initial values vanish. So the result is the loss with the
  cut matrix bracketed `(Sᵀ W) S`.
-/
import proofs.«144528_j25563645346550_1_alg».proof.Proof.RefRun
import proofs.«144528_j25563645346550_1_alg».proof.Proof.Spec
import Idealize.ShloMosaic.Lib.ValueIdx
import Idealize.ShloMosaic.Lib.StableHlo.Predicate
import Idealize.ShloMosaic.PureOps.Ideal.Laws

open scoped BigOperators

noncomputable section

namespace Cert.ReferenceIdeal.RefValue

open Cert.ReferenceIdeal Cert.ReferenceIdeal.Gen Idealize.ShloMosaic Idealize.ShloMosaic.TcCoe Idealize.ShloMosaic.ValueIdx

/-! ## A batched product read at an entry -/

section Dots

variable {B N K M J : Nat} {φ₁ φ₂ : FTy}

/-- The dimension numbers of a batched `Aᵀ B`: batch axis 0, both operands contracted on axis 1. -/
def dimsT (w : DotDims.WF ⟨3, ![B, N, K]⟩ ⟨3, ![B, N, M]⟩ ⟨3, ![B, K, M]⟩ [1] [1] [2] [2] [0] [0]) :
    DotDims ⟨3, ![B, N, K]⟩ ⟨3, ![B, N, M]⟩ ⟨3, ![B, K, M]⟩ :=
  ⟨[1], [1], [2], [2], [0], [0], w⟩

/-- At output entry (b, k, m) and contracted coordinate n the left operand is read at (b, n, k). -/
theorem lhsIdx_dimsT (w : DotDims.WF ⟨3, ![B, N, K]⟩ ⟨3, ![B, N, M]⟩ ⟨3, ![B, K, M]⟩ [1] [1] [2] [2] [0] [0])
    (b : Fin B) (k : Fin K) (m : Fin M) (n : Fin N) :
    (dimsT w).lhsIdx (ix3 b k m) ((contrEquiv1 (dimsT w) N rfl rfl).symm n) = ix3 b n k := by
  have hc := contrEquiv1_symm_val (dimsT w) N rfl rfl n
  funext ax; apply Fin.ext
  match ax with
  | ⟨0, _⟩ => simp [DotDims.lhsIdx, dimsT]; rfl
  | ⟨1, _⟩ => simp [DotDims.lhsIdx, dimsT]; exact hc
  | ⟨2, _⟩ => simp [DotDims.lhsIdx, dimsT]; rfl

/-- … and the right operand at (b, n, m). -/
theorem rhsIdx_dimsT (w : DotDims.WF ⟨3, ![B, N, K]⟩ ⟨3, ![B, N, M]⟩ ⟨3, ![B, K, M]⟩ [1] [1] [2] [2] [0] [0])
    (b : Fin B) (k : Fin K) (m : Fin M) (n : Fin N) :
    (dimsT w).rhsIdx (ix3 b k m) ((contrEquiv1 (dimsT w) N rfl rfl).symm n) = ix3 b n m := by
  have hc := contrEquiv1_symm_val (dimsT w) N rfl rfl n
  funext ax; apply Fin.ext
  match ax with
  | ⟨0, _⟩ => simp [DotDims.rhsIdx, dimsT]; rfl
  | ⟨1, _⟩ => simp [DotDims.rhsIdx, dimsT]; exact hc
  | ⟨2, _⟩ => simp [DotDims.rhsIdx, dimsT]; rfl

/-- The batched `Aᵀ B` at entry (b, k, m): the sum over n of A(b, n, k) · B(b, n, m). -/
theorem dotT_apply (d : DotDims ⟨3, ![B, N, K]⟩ ⟨3, ![B, N, M]⟩ ⟨3, ![B, K, M]⟩)
    (w : DotDims.WF ⟨3, ![B, N, K]⟩ ⟨3, ![B, N, M]⟩ ⟨3, ![B, K, M]⟩ [1] [1] [2] [2] [0] [0]) (hd : d = dimsT w)
    (prec : Option ContractPrecision) (A : FVec Ideal ⟨3, ![B, N, K]⟩ φ₁) (C : FVec Ideal ⟨3, ![B, N, M]⟩ φ₂)
    (b : Fin B) (k : Fin K) (m : Fin M) :
    Host.dotGeneral (F := Ideal) d prec A C (ix3 b k m) = ∑ n : Fin N, A (ix3 b n k) * C (ix3 b n m) := by
  subst hd
  show FloatOps.dotGeneral (dimsT w) prec .single A C (ix3 b k m) = _
  rw [Ideal.dotGeneral_apply, ← Equiv.sum_comp (contrEquiv1 (dimsT w) N rfl rfl).symm]
  refine Finset.sum_congr rfl fun n _ => ?_
  rw [lhsIdx_dimsT, rhsIdx_dimsT]

/-- The dimension numbers of a batched `A B`: batch axis 0, the left operand contracted on its last axis, the
    right one on its middle axis. -/
def dimsM (w : DotDims.WF ⟨3, ![B, K, M]⟩ ⟨3, ![B, M, J]⟩ ⟨3, ![B, K, J]⟩ [2] [1] [1] [2] [0] [0]) :
    DotDims ⟨3, ![B, K, M]⟩ ⟨3, ![B, M, J]⟩ ⟨3, ![B, K, J]⟩ :=
  ⟨[2], [1], [1], [2], [0], [0], w⟩

/-- At output entry (b, k, j) and contracted coordinate m the left operand is read at (b, k, m). -/
theorem lhsIdx_dimsM (w : DotDims.WF ⟨3, ![B, K, M]⟩ ⟨3, ![B, M, J]⟩ ⟨3, ![B, K, J]⟩ [2] [1] [1] [2] [0] [0])
    (b : Fin B) (k : Fin K) (j : Fin J) (m : Fin M) :
    (dimsM w).lhsIdx (ix3 b k j) ((contrEquiv1 (dimsM w) M rfl rfl).symm m) = ix3 b k m := by
  have hc := contrEquiv1_symm_val (dimsM w) M rfl rfl m
  funext ax; apply Fin.ext
  match ax with
  | ⟨0, _⟩ => simp [DotDims.lhsIdx, dimsM]; rfl
  | ⟨1, _⟩ => simp [DotDims.lhsIdx, dimsM]; rfl
  | ⟨2, _⟩ => simp [DotDims.lhsIdx, dimsM]; exact hc

/-- … and the right operand at (b, m, j). -/
theorem rhsIdx_dimsM (w : DotDims.WF ⟨3, ![B, K, M]⟩ ⟨3, ![B, M, J]⟩ ⟨3, ![B, K, J]⟩ [2] [1] [1] [2] [0] [0])
    (b : Fin B) (k : Fin K) (j : Fin J) (m : Fin M) :
    (dimsM w).rhsIdx (ix3 b k j) ((contrEquiv1 (dimsM w) M rfl rfl).symm m) = ix3 b m j := by
  have hc := contrEquiv1_symm_val (dimsM w) M rfl rfl m
  funext ax; apply Fin.ext
  match ax with
  | ⟨0, _⟩ => simp [DotDims.rhsIdx, dimsM]; rfl
  | ⟨1, _⟩ => simp [DotDims.rhsIdx, dimsM]; exact hc
  | ⟨2, _⟩ => simp [DotDims.rhsIdx, dimsM]; rfl

/-- The batched `A B` at entry (b, k, j): the sum over m of A(b, k, m) · B(b, m, j). -/
theorem dotM_apply (d : DotDims ⟨3, ![B, K, M]⟩ ⟨3, ![B, M, J]⟩ ⟨3, ![B, K, J]⟩)
    (w : DotDims.WF ⟨3, ![B, K, M]⟩ ⟨3, ![B, M, J]⟩ ⟨3, ![B, K, J]⟩ [2] [1] [1] [2] [0] [0]) (hd : d = dimsM w)
    (prec : Option ContractPrecision) (A : FVec Ideal ⟨3, ![B, K, M]⟩ φ₁) (C : FVec Ideal ⟨3, ![B, M, J]⟩ φ₂)
    (b : Fin B) (k : Fin K) (j : Fin J) :
    Host.dotGeneral (F := Ideal) d prec A C (ix3 b k j) = ∑ m : Fin M, A (ix3 b k m) * C (ix3 b m j) := by
  subst hd
  show FloatOps.dotGeneral (dimsM w) prec .single A C (ix3 b k j) = _
  rw [Ideal.dotGeneral_apply, ← Equiv.sum_comp (contrEquiv1 (dimsM w) M rfl rfl).symm]
  refine Finset.sum_congr rfl fun m _ => ?_
  rw [lhsIdx_dimsM, rhsIdx_dimsM]

end Dots

/-- `Sᵀ W` at (b, k, m'). -/
theorem v11_apply (S : FVec Ideal S4x8192x16 .f32) (W : FVec Ideal S4x8192x8192 .f32) (b : Fin 4) (k : Fin 16) (m' : Fin 8192) :
    Host.dotGeneral (F := Ideal) dot_S4x8192x16_S4x8192x8192_S4x16x8192_1_1_2_2_0_0 none S W (ix3 b k m')
      = ∑ n : Fin 8192, S (ix3 b n k) * W (ix3 b n m') :=
  dotT_apply _ dot_S4x8192x16_S4x8192x8192_S4x16x8192_1_1_2_2_0_0_wf rfl none S W b k m'

/-- `Sᵀ S` at (b, k, j). -/
theorem v17_apply (S : FVec Ideal S4x8192x16 .f32) (b : Fin 4) (k j : Fin 16) :
    Host.dotGeneral (F := Ideal) dot_S4x8192x16_S4x8192x16_S4x16x16_1_1_2_2_0_0 none S S (ix3 b k j)
      = ∑ n : Fin 8192, S (ix3 b n k) * S (ix3 b n j) :=
  dotT_apply _ dot_S4x8192x16_S4x8192x16_S4x16x16_1_1_2_2_0_0_wf rfl none S S b k j

/-- `M S` at (b, k, j). -/
theorem v12_apply (Mx : FVec Ideal S4x16x8192 .f32) (S : FVec Ideal S4x8192x16 .f32) (b : Fin 4) (k j : Fin 16) :
    Host.dotGeneral (F := Ideal) dot_S4x16x8192_S4x8192x16_S4x16x16_2_1_1_2_0_0 none Mx S (ix3 b k j)
      = ∑ m' : Fin 8192, Mx (ix3 b k m') * S (ix3 b m' j) :=
  dotM_apply _ dot_S4x16x8192_S4x8192x16_S4x16x16_2_1_1_2_0_0_wf rfl none Mx S b k j

/-! ## The diagonal mask -/

/-- The mask at (k, j) is set exactly on the diagonal: the row number plus the zero word equals the column
    number, as 32-bit words of numbers below 16. -/
theorem eyeMask_iff (k j : Fin 16) : RefRun.eyeMask (ix2 k j) = 1#1 ↔ k = j := by
  have h : RefRun.eyeMask (ix2 k j) = IntOp.cmpi .eq (BitVec.ofNat 32 k.val + 0#32) (BitVec.ofNat 32 j.val) := rfl
  rw [h, StableHlo.Predicate.cmpi_eq_iff, BitVec.add_zero]
  constructor
  · intro e
    have e' := congrArg BitVec.toNat e
    simp only [BitVec.toNat_ofNat] at e'
    have := k.isLt; have := j.isLt
    apply Fin.ext; omega
  · rintro rfl; rfl

/-- So the mask is the bit of "k = j". -/
theorem eyeMask_cases (k j : Fin 16) : RefRun.eyeMask (ix2 k j) = if k = j then 1#1 else 0#1 := by
  by_cases h : k = j
  · rw [if_pos h]; exact (eyeMask_iff k j).mpr h
  · rw [if_neg h]; exact eq_zero_of_ne_one fun e => h ((eyeMask_iff k j).mp e)

/-- A 16 × 16 matrix broadcast along the batch axis reads the matrix at (k, j). -/
theorem bcast_batch_apply {α : Type} (x : S16x16.Idx → α) (b : Fin 4) (k j : Fin 16) :
    broadcastInDim S4x16x16 ![1, 2] bcast_S16x16_S4x16x16_1_2 x (ix3 b k j) = x (ix2 k j) :=
  congrArg x (funext fun a => match a with | ⟨0, _⟩ => rfl | ⟨1, _⟩ => rfl)

/-- … and so does the broadcast through a unit batch axis. -/
theorem bcast_unit_batch_apply {α : Type} (x : S16x16.Idx → α) (b : Fin 4) (k j : Fin 16) :
    broadcastInDim S4x16x16 ![0, 1, 2] bcast_S1x16x16_S4x16x16_0_1_2
      (broadcastInDim S1x16x16 ![1, 2] bcast_S16x16_S1x16x16_1_2 x) (ix3 b k j) = x (ix2 k j) :=
  congrArg x (funext fun a => match a with | ⟨0, _⟩ => rfl | ⟨1, _⟩ => rfl)

/-- The masked select keeps the diagonal entries and puts the zero constant elsewhere: the product with the
    identity matrix's entry (`x * 1 = x` and `x * 0 = 0` for every extended real). -/
theorem sel_apply (x : FVec Ideal S4x16x16 .f32) (b : Fin 4) (k j : Fin 16) :
    select (broadcastInDim S4x16x16 ![1, 2] bcast_S16x16_S4x16x16_1_2 RefRun.eyeMask) x
      (broadcastInDim S4x16x16 ![] bcast_S_S4x16x16 (constant (F := Ideal) S_ .f32 0x00000000#32)) (ix3 b k j)
      = x (ix3 b k j) * Cert.Spec.eye k j := by
  rw [select_apply, bcast_batch_apply, eyeMask_cases]
  unfold Cert.Spec.eye
  by_cases h : k = j
  · rw [if_pos h, if_pos h, select_one, mul_one]
  · rw [if_neg h, if_neg h, select_zero, mul_zero]; exact Ideal.ofBits_zero_f32

/-- The mask converted to a float, read unsigned and exactly, is the identity matrix's entry. -/
theorem eyeF_apply (b : Fin 4) (k j : Fin 16) :
    broadcastInDim S4x16x16 ![0, 1, 2] bcast_S1x16x16_S4x16x16_0_1_2
      (broadcastInDim S1x16x16 ![1, 2] bcast_S16x16_S1x16x16_1_2 (uitofp (F := Ideal) .f32 RefRun.eyeMask)) (ix3 b k j)
      = Cert.Spec.eye k j := by
  rw [bcast_unit_batch_apply]
  show (((RefRun.eyeMask (ix2 k j)).toNat : ℝ) : EReal) = _
  rw [eyeMask_cases]
  unfold Cert.Spec.eye
  by_cases h : k = j
  · rw [if_pos h, if_pos h]; simp
  · rw [if_neg h, if_neg h]; simp

/-! ## The host sums -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host sum of a 4 × 16 × 16 array over all its axes, from the zero initial value: the triple sum. -/
theorem total_apply (x : FVec Ideal S4x16x16 .f32) (i : S_.Idx) :
    Host.reduceAdd (F := Ideal) x (constant S_ .f32 0x00000000#32) reducesTo_S4x16x16_S_d0_1_2 h_S_ i
      = ∑ b : Fin 4, ∑ k : Fin 16, ∑ j : Fin 16, x (ix3 b k j) := by
  show Ideal.hostReduceAdd reducesTo_S4x16x16_S_d0_1_2 x (Ideal.ofBits .f32 0x00000000#32) i = _
  rw [Ideal.hostReduceAdd_total _ (fun b => b.elim0), Ideal.ofBits_zero_f32, zero_add, sum_idx3]

/-- The same sum taken in two steps, first over the two matrix axes and then over the batches: each entry
    is counted once, in the batch it belongs to. -/
theorem twoStep_apply (x : FVec Ideal S4x16x16 .f32) (i : S_.Idx) :
    Host.reduceAdd (F := Ideal)
        (Host.reduceAdd (F := Ideal) x (constant S_ .f32 0x00000000#32) reducesTo_S4x16x16_S4_d1_2 h_S_)
        (constant S_ .f32 0x00000000#32) reducesTo_S4_S_d0 h_S_ i
      = ∑ b : Fin 4, ∑ k : Fin 16, ∑ j : Fin 16, x (ix3 b k j) := by
  show Ideal.hostReduceAdd reducesTo_S4_S_d0
      (Ideal.hostReduceAdd reducesTo_S4x16x16_S4_d1_2 x (Ideal.ofBits .f32 0x00000000#32))
      (Ideal.ofBits .f32 0x00000000#32) i = _
  rw [Ideal.hostReduceAdd_total _ (fun b => b.elim0), Ideal.ofBits_zero_f32, zero_add]
  unfold Ideal.hostReduceAdd
  simp only [zero_add]
  rw [Finset.sum_fiberwise, sum_idx3]

/-! ## The stages at an entry, as the specification's matrices -/

/-- The reference's cut matrix `(Sᵀ W) S` at (b, k, j). -/
theorem cut_apply (S : FVec Ideal S4x8192x16 .f32) (W : FVec Ideal S4x8192x8192 .f32) (b : Fin 4) (k j : Fin 16) :
    Host.dotGeneral (F := Ideal) dot_S4x16x8192_S4x8192x16_S4x16x16_2_1_1_2_0_0 none
        (Host.dotGeneral (F := Ideal) dot_S4x8192x16_S4x8192x8192_S4x16x8192_1_1_2_2_0_0 none S W) S (ix3 b k j)
      = Cert.Spec.cutR (fun b n k => S (ix3 b n k)) (fun b n m' => W (ix3 b n m')) b k j := by
  rw [v12_apply]
  unfold Cert.Spec.cutR
  refine Finset.sum_congr rfl fun m' _ => ?_
  rw [v11_apply]

/-- `Sᵀ S` at (b, k, j). -/
theorem sts_apply (S : FVec Ideal S4x8192x16 .f32) (b : Fin 4) (k j : Fin 16) :
    Host.dotGeneral (F := Ideal) dot_S4x8192x16_S4x8192x16_S4x16x16_1_1_2_2_0_0 none S S (ix3 b k j)
      = Cert.Spec.sts (fun b n k => S (ix3 b n k)) b k j := by
  rw [v17_apply]; rfl

/-- The reference's loss term is the specification's loss, bracketed the reference's way. -/
theorem lossTerm_eq (S : FVec Ideal S4x8192x16 .f32) (W : FVec Ideal S4x8192x8192 .f32) :
    Cert.ReferenceIdeal.RefRun.lossTerm (F := Ideal) S W
      = fun _ => Cert.Spec.lossR (fun b n k => S (ValueIdx.ix3 b n k)) (fun b n m' => W (ValueIdx.ix3 b n m')) := by
  funext i
  unfold RefRun.lossTerm
  simp only []
  show -(Ideal.div _ _) + Ideal.div (Ideal.sqrt _) (Ideal.ofBits .f32 0x40800000#32) = _
  rw [twoStep_apply, total_apply, total_apply]
  unfold Cert.Spec.lossR Cert.Spec.lossOf Cert.Spec.trOf Cert.Spec.csOf Cert.Spec.osOf
  rw [zero_sub]
  have htr : ∀ (b : Fin 4) (k j : Fin 16),
      select (broadcastInDim S4x16x16 ![1, 2] bcast_S16x16_S4x16x16_1_2 RefRun.eyeMask)
          (Host.dotGeneral (F := Ideal) dot_S4x16x8192_S4x8192x16_S4x16x16_2_1_1_2_0_0 none
            (Host.dotGeneral (F := Ideal) dot_S4x8192x16_S4x8192x8192_S4x16x8192_1_1_2_2_0_0 none S W) S)
          (broadcastInDim S4x16x16 ![] bcast_S_S4x16x16 (constant (F := Ideal) S_ .f32 0x00000000#32)) (ix3 b k j)
        = Cert.Spec.cutR (fun b n k => S (ix3 b n k)) (fun b n m' => W (ix3 b n m')) b k j * Cert.Spec.eye k j :=
    fun b k j => by rw [sel_apply, cut_apply]
  have heye : ∀ (b : Fin 4) (k j : Fin 16),
      broadcastInDim S4x16x16 ![0, 1, 2] bcast_S1x16x16_S4x16x16_0_1_2
          (broadcastInDim S1x16x16 ![1, 2] bcast_S16x16_S1x16x16_1_2 (uitofp (F := Ideal) .f32 RefRun.eyeMask)) (ix3 b k j)
        = Cert.Spec.eye k j := eyeF_apply
  simp only [htr, heye, cut_apply, mulf_apply, subf_apply, sts_apply]

end Cert.ReferenceIdeal.RefValue

end
-- ==== Proof.SpecAlg.lean ====
/-
  The two bracketings of `Sᵀ W S` agree when every entry of `S` and `W` is a real number.
  Over the reals, `∑ n, a n * ∑ m, w n m * c m = ∑ m, (∑ n, a n * w n m) * c m` by the
  distributive law (both sides become the double sum of `a n * w n m * c m`) and the exchange
  of two finite sums. The inclusion of the reals in the extended reals preserves `0`, `+` and
  `*`, hence finite sums of products, so the same identity holds for the images of real entries.
  The loss depends on the cut matrix only through its entries, so the two losses agree as well.
-/
import proofs.«144528_j25563645346550_1_alg».proof.Proof.Spec
import Mathlib.Data.EReal.Basic
import Mathlib.Algebra.BigOperators.Ring.Finset
import Mathlib.Algebra.BigOperators.Group.Finset.Sigma
import Mathlib.Tactic.Ring

noncomputable section

namespace Cert.Spec

open scoped BigOperators

/-- The inclusion of the reals in the extended reals commutes with finite sums: it is additive
and sends `0` to `0`. -/
theorem coe_finset_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- Associativity of the triple product `aᵀ w c` over the reals: both sides are the double
sum of `a n * w n m * c m`, taken in the two orders. -/
theorem real_assoc {ι κ : Type*} [Fintype ι] [Fintype κ]
    (a : ι → ℝ) (w : ι → κ → ℝ) (c : κ → ℝ) :
    ∑ n, a n * ∑ m, w n m * c m = ∑ m, (∑ n, a n * w n m) * c m := by
  simp only [Finset.mul_sum, Finset.sum_mul]
  rw [Finset.sum_comm]
  refine Finset.sum_congr rfl (fun m _ => Finset.sum_congr rfl (fun n _ => ?_))
  ring

/-- The same identity for the images of real families in the extended reals: every partial
sum and product is the image of the real one. -/
theorem ereal_assoc {ι κ : Type*} [Fintype ι] [Fintype κ]
    (a : ι → ℝ) (w : ι → κ → ℝ) (c : κ → ℝ) :
    ∑ n, (a n : EReal) * ∑ m, (w n m : EReal) * (c m : EReal)
      = ∑ m, (∑ n, (a n : EReal) * (w n m : EReal)) * (c m : EReal) := by
  have h := congrArg (fun x : ℝ => (x : EReal)) (real_assoc a w c)
  simpa only [coe_finset_sum, EReal.coe_mul] using h

/-- With real entries the kernel's bracketing `Sᵀ (W S)` and the reference's `(Sᵀ W) S` are
the same 16 × 16 matrix in every batch. -/
theorem cutK_eq_cutR (S : SArr) (W : WArr)
    (hS : ∀ b n k, ∃ r : ℝ, S b n k = (r : EReal))
    (hW : ∀ b n m', ∃ r : ℝ, W b n m' = (r : EReal)) : cutK S W = cutR S W := by
  choose s hs using hS
  choose w hw using hW
  funext b k j
  unfold cutK cutR
  simp only [hs, hw]
  exact ereal_assoc (fun n => s b n k) (fun n m' => w b n m') (fun m' => s b m' j)

/-- Hence the two losses agree. -/
theorem lossK_eq_lossR (S : SArr) (W : WArr)
    (hS : ∀ b n k, ∃ r : ℝ, S b n k = (r : EReal))
    (hW : ∀ b n m', ∃ r : ℝ, W b n m' = (r : EReal)) : lossK S W = lossR S W := by
  unfold lossK lossR
  rw [cutK_eq_cutR S W hS hW]

end Cert.Spec

end
-- ==== Proof.Finite.lean ====
/-
  What the precondition gives: when `finite_inputs` of three arrays of extended reals is all ones,
  every entry of the second and of the third array is a real number. The predicate is the conjunction
  of three `all`-reductions of `|x| < +∞`; `|x| < ⊤` rules out both infinities, so `x` is the
  coercion of a real.
-/
import proofs.«144528_j25563645346550_1_alg».proof.Pre_finite_inputs
import Idealize.ShloMosaic.PureOps.Ideal
import Idealize.ShloMosaic.Lib.ReduceAll
import Idealize.ShloMosaic.Lib.ValueIdx

noncomputable section

namespace Cert.Fin

open Idealize.ShloMosaic Cert.Pre_finite_inputs

/-- The rank-0 result shape of the three reductions has a single index. -/
local instance subsingleton_idx : Subsingleton S_.Idx := ⟨fun _ _ => funext fun d => d.elim0⟩

/-- The f32 pattern `0x7F800000` (exponent all ones, fraction zero, sign clear) denotes `+∞`, the top
    of the extended reals. -/
theorem ofBits_inf : Ideal.ofBits .f32 0x7F800000#32 = ⊤ := by simp [Ideal.ofBits, Ideal.ieee]

/-- An extended real whose absolute value `max x (-x)` lies below `⊤` is neither infinity
    (`max ⊥ ⊤ = ⊤` and `max ⊤ ⊥ = ⊤` are not below `⊤`), hence the coercion of a real. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison `|x| < +∞` being 1 says that element of `x` is real: at the extended
    reals the comparison is `decide (max (x i) (-(x i)) < ⊤)`, and the word of a false decision is 0. -/
theorem real_of_cmp {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  refine real_of_abs_lt_top (x i) ?_
  by_contra hn
  simp [Ideal.cmp, hn] at h'

/-- Under the precondition the affinities and the logits are real. The predicate at its one index is
    `(r₀ ∧ r₁) ∧ r₂` with `rₖ` the `and`-reduction over all axes of `|xₖ| < +∞`; a conjunction of `i1`
    words is 1 only when both are, and an `and`-reduction into one index that is 1 met a 1 at every
    operand index. -/
theorem real_of_pre [hP : Cert.Pre_finite_inputs.Facts] (x0 : FVec Ideal S4x8192x64 .f32) (x1 : FVec Ideal S4x8192x8192 .f32)
    (x2 : FVec Ideal S4x8192x16 .f32)
    (h : Cert.Pre_finite_inputs.fn (F := Ideal) x0 x1 x2 = fun _ => 1#1) :
    (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨_, h1⟩ := IntOp.andi_eq_one.1 h01
  exact ⟨fun i => real_of_cmp _ x1 i (Host.reduce_andi_all _ _ _ _ _ h1 i),
         fun i => real_of_cmp _ x2 i (Host.reduce_andi_all _ _ _ _ _ h2 i)⟩

end Cert.Fin

end
-- ==== Proof.lean ====
/-
  The certificate. Both programs take logits and affinities, compute on the host the softmax `S` of the
  logits over its last axis, return `S`, and return the loss
  `-(Σ_b tr(S_bᵀ W_b S_b) / Σ_b Σ(S_bᵀ W_b S_b)) + sqrt(Σ_b ‖S_bᵀ S_b - I‖²) / 4`.
  The kernel brackets the cut matrix `S_bᵀ (W_b S_b)`, one 256-row tile of `W_b S_b` per grid point, and
  keeps the three sums in scratch accumulators across the 4 × 32 grid; the reference brackets it
  `(S_bᵀ W_b) S_b`. Under the precondition the logits and affinities are real, so the softmax is real,
  and over the reals the two bracketings agree (distributivity and the exchange of two finite sums);
  the sums over batches and entries agree in any order and grouping. The frames: each program runs to
  the end and leaves its arguments as they were.
-/
import proofs.«144528_j25563645346550_1_alg».proof.Defs
import proofs.«144528_j25563645346550_1_alg».proof.Proof.Gen.Kernel
import proofs.«144528_j25563645346550_1_alg».proof.Proof.Gen.KernelIdeal
import proofs.«144528_j25563645346550_1_alg».proof.Proof.Gen.ReferenceIdeal
import proofs.«144528_j25563645346550_1_alg».proof.Proof.Gen.Pre_finite_inputs
import proofs.«144528_j25563645346550_1_alg».proof.Proof.PFrame
import proofs.«144528_j25563645346550_1_alg».proof.Proof.KTail
import proofs.«144528_j25563645346550_1_alg».proof.Proof.KValue
import proofs.«144528_j25563645346550_1_alg».proof.Proof.RefRun
import proofs.«144528_j25563645346550_1_alg».proof.Proof.RefValue
import proofs.«144528_j25563645346550_1_alg».proof.Proof.SpecAlg
import proofs.«144528_j25563645346550_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_p : Cert.frame_Kernel := fun m ρ _ => Cert.Kernel.Body.frame m ρ

/-- The idealized kernel program runs and leaves its arguments unchanged. -/
theorem frame_pi : Cert.frame_KernelIdeal := fun m ρ _ => Cert.KernelIdeal.Body.frame m ρ

/-- The reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- Over the extended reals, from memories agreeing on the arguments, both programs end with the softmax of
    the logits and with the loss: the kernel's with the cut matrix bracketed `Sᵀ (W S)`, the reference's with
    `(Sᵀ W) S`, equal because under the precondition every entry is real. -/
theorem algebraic : Cert.algebraic_KernelIdeal_ReferenceIdeal := by
  intro m ρ m' ρ' hpre hagree
  refine ⟨fun c => Cert.Smx.smx (F := Ideal) Cert.KernelIdeal.Body.kRel (m ((c.tc : Thread Cert.KernelIdeal.nD Cert.KernelIdeal.τ).loc Cert.KernelIdeal.main_arg2)),
    fun c _ => Cert.Spec.lossK (Cert.KernelIdeal.KVal.SS m c) (Cert.KernelIdeal.KVal.WW m c), ?_, ?_⟩
  · exact (θ_run Cert.KernelIdeal.defs _ _).mono (fun _ h c =>
      ⟨(h c).1.trans (Cert.KernelIdeal.Body.Sarr_eq m c),
        (h c).2.1.trans (funext fun _ => Cert.KernelIdeal.KVal.outFinal_eq m c _), (h c).2.2⟩)
      (Cert.KernelIdeal.Body.run_named m ρ)
  · refine (θ_run Cert.ReferenceIdeal.defs _ _).mono (fun _ h c => ⟨?_, ?_, (h c).2.2⟩)
      (Cert.ReferenceIdeal.RefRun.run (F := Ideal) m' ρ')
    · rw [(h c).1, (hagree c).2.2]
    · have hfin := Cert.Fin.real_of_pre _ _ _ (hpre c)
      have hS : Cert.KernelIdeal.KVal.SS m c = fun b n k =>
          Cert.Smx.smx (F := Ideal) Cert.KernelIdeal.Body.kRel (m ((c.tc : Thread Cert.KernelIdeal.nD Cert.KernelIdeal.τ).loc Cert.KernelIdeal.main_arg2)) (ix3 b n k) := by
        unfold Cert.KernelIdeal.KVal.SS; rw [Cert.KernelIdeal.Body.Sarr_eq]
      have hW : Cert.KernelIdeal.KVal.WW m c = fun b n k =>
          m ((c.tc : Thread Cert.KernelIdeal.nD Cert.KernelIdeal.τ).loc Cert.KernelIdeal.main_arg1) (ix3 b n k) := by
        unfold Cert.KernelIdeal.KVal.WW; rw [Cert.KernelIdeal.Body.Warr_eq]
      rw [(h c).2.1, Cert.ReferenceIdeal.RefValue.lossTerm_eq, (hagree c).2.1, (hagree c).2.2]
      funext _
      show _ = Cert.Spec.lossK (Cert.KernelIdeal.KVal.SS m c) (Cert.KernelIdeal.KVal.WW m c)
      rw [hS, hW, Cert.Spec.lossK_eq_lossR _ _
        (fun b n k => Cert.Smx.smx_real Cert.KernelIdeal.Body.kRel _ hfin.2 (ix3 b n k))
        (fun b n k => hfin.1 (ix3 b n k))]

end Cert.Proof

/-- The claim. -/
theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
